-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S32x64 : Shape := ⟨2, ![32, 64]⟩
abbrev S32 : Shape := ⟨1, ![32]⟩
abbrev S16x32 : Shape := ⟨2, ![16, 32]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_arg5 : FVec F S16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_c_8 : IVec S_ 32 := constantI S_ 32 0#32
  let main_v24 : IVec S2x3200000 32 := broadcastInDim S2x3200000 ![] bcast_S_S2x3200000 main_c_8
  let main_v25 : IVec S2x3200000 1 := cmpi .sge main_arg1 main_v24
  let main_c_9 : IVec S_ 1 := constantI S_ 1 1#1
  let main_v26 : IVec S_ 1 := (fun x v => Host.reduce IntOp.andi x v reducesTo_S2x3200000_S_d0_1 h_S_) main_v25 main_c_9
  let main_v27 : IVec S_ 1 := andi main_v23 main_v26
  let main_c_10 : IVec S_ 32 := constantI S_ 32 100000#32
  let main_v28 : IVec S2x3200000 32 := broadcastInDim S2x3200000 ![] bcast_S_S2x3200000 main_c_10
  let main_v29 : IVec S2x3200000 1 := cmpi .slt main_arg1 main_v28
  let main_c_11 : IVec S_ 1 := constantI S_ 1 1#1
  let main_v30 : IVec S_ 1 := (fun x v => Host.reduce IntOp.andi x v reducesTo_S2x3200000_S_d0_1 h_S_) main_v29 main_c_11
  let main_v31 : IVec S_ 1 := andi main_v27 main_v30
  main_v31

def fn {F : FTy → Type} [FloatOps F] (main_arg0 : FVec F S100000x64 .f32) (main_arg1 : IVec S2x3200000 32) (main_arg2 : FVec F S32x64 .f32) (main_arg3 : FVec F S32 .f32) (main_arg4 : FVec F S16x32 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg1 main_arg5 main_v13 main_v16
-- ==== Kernel.lean ====
abbrev S100000x64 : Shape := ⟨2, ![100000, 64]⟩
abbrev S2x3200000 : Shape := ⟨2, ![2, 3200000]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S64x32 : Shape := ⟨2, ![64, 32]⟩
abbrev S100000x32 : Shape := ⟨2, ![100000, 32]⟩
abbrev S10000x64 : Shape := ⟨2, ![10000, 64]⟩
abbrev S10000x1 : Shape := ⟨2, ![10000, 1]⟩
abbrev S10000x32 : Shape := ⟨2, ![10000, 32]⟩
abbrev S3300000x32 : Shape := ⟨2, ![3300000, 32]⟩
abbrev S1x32 : Shape := ⟨2, ![1, 32]⟩
abbrev S32x16 : Shape := ⟨2, ![32, 16]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S16x100000 : Shape := ⟨2, ![16, 100000]⟩
abbrev S3200000x1 : Shape := ⟨2, ![3200000, 1]⟩
abbrev S1 : Shape := ⟨1, ![1]⟩
abbrev S1x1 : Shape := ⟨2, ![1, 1]⟩
abbrev S16x3200000 : Shape := ⟨2, ![16, 3200000]⟩
abbrev S16x64000 : Shape := ⟨2, ![16, 64000]⟩
abbrev S1x64000 : Shape := ⟨2, ![1, 64000]⟩
abbrev S64000 : Shape := ⟨1, ![64000]⟩

abbrev nBuf : Space → Nat
  | .hbm => 120
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S32x64, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S64x32, .f32⟩
  | .hbm, ⟨29, _⟩ => ⟨S100000x32, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000x32, .f32⟩
  | .hbm, ⟨39, _⟩ => ⟨S_, .f32⟩
  | .hbm, ⟨40, _⟩ => ⟨S100000x32, .f32⟩
  | .hbm, ⟨41, _⟩ => ⟨S3300000x1, .i32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S1x32, .f32⟩
  | .hbm, ⟨46, _⟩ => ⟨S100000x32, .f32⟩
  | .hbm, ⟨47, _⟩ => ⟨S100000x32, .f32⟩
  | .hbm, ⟨48, _⟩ => ⟨S_, .f32⟩
  | .hbm, ⟨49, _⟩ => ⟨S100000x32, .f32⟩
  | .hbm, ⟨50, _⟩ => ⟨S100000x32, .f32⟩
  | .hbm, ⟨51, _⟩ => ⟨S32x16, .f32⟩
  | .hbm, ⟨52, _⟩ => ⟨S100000x16, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S100000x16, .f32⟩
  | .hbm, ⟨71, _⟩ => ⟨S16x100000, .f32⟩
  | .hbm, ⟨72, _⟩ => ⟨S_, .i32⟩
  | .hbm, ⟨73, _⟩ => ⟨S3200000, .i32⟩
  | .hbm, ⟨74, _⟩ => ⟨S3200000, .i1⟩
  | .hbm, ⟨75, _⟩ => ⟨S_, .i32⟩
  | .hbm, ⟨76, _⟩ => ⟨S3200000, .i32⟩
  | .hbm, ⟨77, _⟩ => ⟨S3200000, .i32⟩
  | .hbm, ⟨78, _⟩ => ⟨S3200000, .i32⟩
  | .hbm, ⟨79, _⟩ => ⟨S3200000x1, .i32⟩
  | .hbm, ⟨80, _⟩ => ⟨S1, .i32⟩
  | .hbm, ⟨81, _⟩ => ⟨S_, .i32⟩
  | .hbm, ⟨82, _⟩ => ⟨S3200000x1, .i32⟩
  | .hbm, ⟨83, _⟩ => ⟨S3200000x1, .i1⟩
  | .hbm, ⟨84, _⟩ => ⟨S1x1, .i32⟩
  | .hbm, ⟨85, _⟩ => ⟨S3200000x1, .i32⟩
  | .hbm, ⟨86, _⟩ => ⟨S3200000x1, .i1⟩
  | .hbm, ⟨87, _⟩ => ⟨S3200000x1, .i1⟩
  | .hbm, ⟨88, _⟩ => ⟨S_, .i1⟩
  | .hbm, ⟨89, _⟩ => ⟨S3200000, .i1⟩
  | .hbm, ⟨90, _⟩ => ⟨S16x3200000, .f32⟩
  | .hbm, ⟨91, _⟩ => ⟨S16x3200000, .i1⟩
  | .hbm, ⟨92, _⟩ => ⟨S_, .f32⟩
  | .hbm, ⟨93, _⟩ => ⟨S16x3200000, .f32⟩
  | .hbm, ⟨94, _⟩ => ⟨S16x3200000, .f32⟩
  | .hbm, ⟨95, _⟩ => ⟨S_, .i32⟩
  | .hbm, ⟨96, _⟩ => ⟨S3200000, .i32⟩
  | .hbm, ⟨97, _⟩ => ⟨S3200000, .i1⟩
  | .hbm, ⟨98, _⟩ => ⟨S_, .i32⟩
  | .hbm, ⟨99, _⟩ => ⟨S3200000, .i32⟩
  | .hbm, ⟨100, _⟩ => ⟨S3200000, .i32⟩
  | .hbm, ⟨101, _⟩ => ⟨S3200000, .i32⟩
  | .hbm, ⟨102, _⟩ => ⟨S3200000x1, .i32⟩
  | .hbm, ⟨103, _⟩ => ⟨S1, .i32⟩
  | .hbm, ⟨104, _⟩ => ⟨S_, .i32⟩
  | .hbm, ⟨105, _⟩ => ⟨S3200000x1, .i32⟩
  | .hbm, ⟨106, _⟩ => ⟨S3200000x1, .i1⟩
  | .hbm, ⟨107, _⟩ => ⟨S1x1, .i32⟩
  | .hbm, ⟨108, _⟩ => ⟨S3200000x1, .i32⟩
  | .hbm, ⟨109, _⟩ => ⟨S3200000x1, .i1⟩
  | .hbm, ⟨110, _⟩ => ⟨S3200000x1, .i1⟩
  | .hbm, ⟨111, _⟩ => ⟨S_, .i1⟩
  | .hbm, ⟨112, _⟩ => ⟨S3200000, .i1⟩
  | .hbm, ⟨113, _⟩ => ⟨S16x3200000, .f32⟩
  | .hbm, ⟨114, _⟩ => ⟨S16x3200000, .i1⟩
  | .hbm, ⟨115, _⟩ => ⟨S_, .f32⟩
  | .hbm, ⟨116, _⟩ => ⟨S16x3200000, .f32⟩
  | .hbm, ⟨117, _⟩ => ⟨S16x3200000, .f32⟩
  | .hbm, ⟨118, _⟩ => ⟨S1x3200000, .f32⟩
  | .hbm, ⟨119, _⟩ => ⟨S3200000, .f32⟩
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S10000x1, .f32⟩
  | .local _ .vmem, ⟨4, _⟩ => ⟨S10000x1, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S32x16, .f32⟩
  | .local _ .vmem, ⟨10, _⟩ => ⟨S10000x1, .f32⟩
  | .local _ .vmem, ⟨11, _⟩ => ⟨S10000x1, .f32⟩
  | .local _ .vmem, ⟨12, _⟩ => ⟨S10000x16, .f32⟩
  | .local _ .vmem, ⟨13, _⟩ => ⟨S10000x16, .f32⟩
  | .local _ .vmem, ⟨14, _⟩ => ⟨S16x64000, .f32⟩
  | .local _ .vmem, ⟨15, _⟩ => ⟨S16x64000, .f32⟩
  | .local _ .vmem, ⟨16, _⟩ => ⟨S16x64000, .f32⟩
  | .local _ .vmem, ⟨17, _⟩ => ⟨S16x64000, .f32⟩
  | .local _ .vmem, ⟨18, _⟩ => ⟨S1x64000, .f32⟩
  | .local _ .vmem, ⟨19, _⟩ => ⟨S1x64000, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_cst : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v52 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S16x64000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x64000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  transposes_S32x64_S64x32_1_0 : S32x64.Transposes [1, 0] S64x32
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S16x32_S32x16_1_0 : S16x32.Transposes [1, 0] S32x16
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S100000x16_S16x100000_1_0 : S100000x16.Transposes [1, 0] S16x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S16x3200000_1 : S3200000.BroadcastsInDim S16x3200000 (![1] : Fin 1 → Fin S16x3200000.rank)
  bcast_S_S16x3200000 : S_.BroadcastsInDim S16x3200000 (![] : Fin 0 → Fin S16x3200000.rank)
  inb_S16x64000_S16x64000_0_0 : ∀ a, (![0, 0] : Fin 2 → Nat) a + S16x64000.size a ≤ S16x64000.size a
  h_S16x64000 : 0 < S16x64000.numel
  shapeCasts_S16x64000_S16x64000 : S16x64000.ShapeCasts S16x64000
  reduces_S16x64000_S64000 : S16x64000.Reduces [0] S64000
  shapeCasts_S64000_S1x64000 : S64000.ShapeCasts S1x64000
  inb_S1x64000_S1x64000_0_0 : ∀ a, (![0, 0] : Fin 2 → Nat) a + S1x64000.size a ≤ S1x64000.size a
  h_S1x64000 : 0 < S1x64000.numel
  scatter_S100000_S3300000x1_S3300000_n_0_0_1_wf : ScatterDims.WF S100000 S3300000x1 S3300000 [] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  gather_S16x100000_S3200000x1_S16x3200000_0_1_n_n_1_1_161_wf : GatherDims.WF S16x100000 S3200000x1 S16x3200000 [0] [1] [] [1] [] 1 ![16, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x64000.size a ≤ S16x3200000.size a
  hwx2_0 : ∀ i : grid2.Coords, EltTy.bits .f32 = 32 ∨ (Rect.block (s := S16x3200000) S16x64000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x64000.size a ≤ S16x3200000.size a
  hwx2_1 : ∀ i : grid2.Coords, EltTy.bits .f32 = 32 ∨ (Rect.block (s := S16x3200000) S16x64000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64000.size a ≤ S1x3200000.size a
  hwx2_2 : ∀ i : grid2.Coords, EltTy.bits .f32 = 32 ∨ (Rect.block (s := S1x3200000) S1x64000.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S16x64000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S16x64000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S64x32 : Shape := ⟨2, ![64, 32]⟩
abbrev S100000x32 : Shape := ⟨2, ![100000, 32]⟩
abbrev S3300000x32 : Shape := ⟨2, ![3300000, 32]⟩
abbrev S1x32 : Shape := ⟨2, ![1, 32]⟩
abbrev S32x16 : Shape := ⟨2, ![32, 16]⟩
abbrev S100000x16 : Shape := ⟨2, ![100000, 16]⟩
abbrev S3300000x16 : Shape := ⟨2, ![3300000, 16]⟩
abbrev S1x16 : Shape := ⟨2, ![1, 16]⟩
abbrev S3200000x1 : Shape := ⟨2, ![3200000, 1]⟩
abbrev S3200000x16 : Shape := ⟨2, ![3200000, 16]⟩

abbrev nBuf : Space → Nat
  | .hbm => 156
  | .vmem => 0
  | .smem => 0
  | _ => 0

abbrev hbmTy0_0 (i : Nat) : BufTy := match i % 128 with
  | 0 => ⟨S100000x64, .f32⟩
  | 1 => ⟨S2x3200000, .i32⟩
  | 2 => ⟨S32x64, .f32⟩
  | 3 => ⟨S32, .f32⟩
  | 4 => ⟨S16x32, .f32⟩
  | 5 => ⟨S16, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S64x32, .f32⟩
  | 47 => ⟨S100000x32, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x32, .f32⟩
  | 57 => ⟨S3300000x1, .f32⟩
  | 58 => ⟨S3300000x32, .f32⟩
  | 59 => ⟨S3300000x32, .f32⟩
  | 60 => ⟨S_, .f32⟩
  | 61 => ⟨S100000x32, .f32⟩
  | 62 => ⟨S3300000x1, .i32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S32x16, .f32⟩
  | 107 => ⟨S100000x16, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x16, .f32⟩
  | 117 => ⟨S3300000x1, .f32⟩
  | 118 => ⟨S3300000x16, .f32⟩
  | 119 => ⟨S3300000x16, .f32⟩
  | 120 => ⟨S_, .f32⟩
  | 121 => ⟨S100000x16, .f32⟩
  | 122 => ⟨S3300000x1, .i32⟩
  | 123 => ⟨S100000x16, .f32⟩
  | 124 => ⟨S1x16, .f32⟩
  | 125 => ⟨S100000x16, .f32⟩
  | 126 => ⟨S100000x16, .f32⟩
  | 127 => ⟨S_, .i32⟩
  | _ => ⟨S100000x64, .f32⟩

abbrev hbmTy0_1 (i : Nat) : BufTy := match i % 128 with
  | 0 => ⟨S3200000, .i32⟩
  | 1 => ⟨S3200000, .i1⟩
  | 2 => ⟨S_, .i32⟩
  | 3 => ⟨S3200000, .i32⟩
  | 4 => ⟨S3200000, .i32⟩
  | 5 => ⟨S3200000, .i32⟩
  | 6 => ⟨S3200000x1, .i32⟩
  | 7 => ⟨S3200000x16, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x16, .f32⟩
  | 17 => ⟨S3200000x16, .f32⟩
  | 18 => ⟨S_, .f32⟩
  | 19 => ⟨S3200000, .f32⟩
  | 20 => ⟨S3200000, .f32⟩
  | 21 => ⟨S3200000, .f32⟩
  | 22 => ⟨S_, .f32⟩
  | 23 => ⟨S3200000, .f32⟩
  | 24 => ⟨S3200000, .f32⟩
  | 25 => ⟨S_, .f32⟩
  | 26 => ⟨S3200000, .f32⟩
  | 27 => ⟨S3200000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_20 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_22 : Ref sig .tc := ⟨.hbm, 136, rfl⟩
abbrev main_v100 : Ref sig .tc := ⟨.hbm, 137, rfl⟩
abbrev main_v101 : Ref sig .tc := ⟨.hbm, 138, rfl⟩
abbrev main_c_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_24 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_25 : Ref sig .tc := ⟨.hbm, 150, rfl⟩
abbrev main_v111 : Ref sig .tc := ⟨.hbm, 151, rfl⟩
abbrev main_v112 : Ref sig .tc := ⟨.hbm, 152, rfl⟩
abbrev main_cst_26 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S32x64_S64x32_1_0 : S32x64.Transposes [1, 0] S64x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S16x32_S32x16_1_0 : S16x32.Transposes [1, 0] S32x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x16_S3200000_d1 : S3200000x16.ReducesTo [1] S3200000
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  gather_S100000x16_S3200000x1_S3200000x16_1_0_n_n_0_1_116_wf : GatherDims.WF S100000x16 S3200000x1 S3200000x16 [1] [0] [] [0] [] 1 ![1, 16]

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf

class Facts : Prop extends Facts₀ where

variable [Facts]
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.Spec.lean ====
/-
  THE TWO PROGRAMS' MATHEMATICS, over the extended reals. A graph has 100000 nodes; an update list of 3300000 rows
  (the 3200000 edges followed by one self loop per node) carries, per row `e`, a source node (the start index of row
  `e` of the column `sI`, read signed and clamped) and a target node (the start index of row `e` of the column `dI`,
  read signed and NOT clamped: a row whose target is outside the graph lands nowhere). A layer sends every node's
  feature row through a linear map, sums over the rows landing on node `v` the source's mapped row weighted by the
  two endpoints' factors, and adds a bias. The two programs differ in where the target's factor is applied: inside the
  sum, once per row (`layerR`), or outside it, once per node (`layerK`). The result is, per edge, the logistic
  function of the inner product of the two endpoints' final rows (`decode`).
-/
import proofs.«418788_j89043261981497_3_alg».proof.Proof.LibGatherScatter
import Idealize.ShloMosaic.PureOps.Ideal.Laws

open scoped BigOperators

noncomputable section

namespace Cert.Gcn

open Idealize.ShloMosaic Idealize.ShloMosaic.ValueIdx Idealize.ShloMosaic.RowOps
  Idealize.ShloMosaic.StableHlo.Predicate

/-- The number of nodes, of edges, and of update rows (edges and self loops). -/
abbrev NN : Nat := 100000
abbrev EE : Nat := 3200000
abbrev MM : Nat := 3300000

theorem hNN : 0 < NN := by decide

/-- The node that row `e` of a column of start indices names: the index read signed and clamped into the graph. -/
abbrev node {n : Nat} (I : IVec ⟨2, ![n, 1]⟩ 32) (e : Fin n) : Fin NN := clampRow NN hNN I e

/-- The update rows that land on node `v`. -/
def inc (dI : IVec ⟨2, ![MM, 1]⟩ 32) (v : Fin NN) : Finset (Fin MM) :=
  Finset.univ.filter (fun e : Fin MM => lands dI e v.val)

/-- Entry (v, j) of the product of the [N × K] features with the [K × D] weights. -/
def lin {K D : Nat} (h : (⟨2, ![NN, K]⟩ : Shape).Idx → EReal) (wt : (⟨2, ![K, D]⟩ : Shape).Idx → EReal)
    (v : Fin NN) (j : Fin D) : EReal :=
  ∑ k : Fin K, h (ix2 v k) * wt (ix2 k j)

/-- The product with every row scaled by its node's factor, the factors given as an [N × 1] column. -/
def scaled {K D : Nat} (h : (⟨2, ![NN, K]⟩ : Shape).Idx → EReal) (wt : (⟨2, ![K, D]⟩ : Shape).Idx → EReal)
    (dv2 : (⟨2, ![NN, 1]⟩ : Shape).Idx → EReal) : (⟨2, ![NN, D]⟩ : Shape).Idx → EReal :=
  fun i => lin h wt (i 0 : Fin NN) (i 1 : Fin D) * dv2 (ix2 (i 0 : Fin NN) (0 : Fin 1))

/-- A layer with the target's factor applied once per node, outside the sum. -/
def layerK {K D : Nat} (h : (⟨2, ![NN, K]⟩ : Shape).Idx → EReal) (wt : (⟨2, ![K, D]⟩ : Shape).Idx → EReal)
    (b : (⟨1, ![D]⟩ : Shape).Idx → EReal) (sI dI : IVec ⟨2, ![MM, 1]⟩ 32)
    (dv : (⟨1, ![NN]⟩ : Shape).Idx → EReal) : (⟨2, ![NN, D]⟩ : Shape).Idx → EReal :=
  fun i => (∑ e ∈ inc dI (i 0 : Fin NN), lin h wt (node sI e) (i 1 : Fin D) * dv (ix1 (node sI e)))
    * dv (ix1 (i 0 : Fin NN)) + b (ix1 (i 1 : Fin D))

/-- A layer with both endpoints' factors applied once per row, inside the sum; the target's factor is read at the
    column `dWI`, clamped. -/
def layerR {K D : Nat} (h : (⟨2, ![NN, K]⟩ : Shape).Idx → EReal) (wt : (⟨2, ![K, D]⟩ : Shape).Idx → EReal)
    (b : (⟨1, ![D]⟩ : Shape).Idx → EReal) (sI dI dWI : IVec ⟨2, ![MM, 1]⟩ 32)
    (dv : (⟨1, ![NN]⟩ : Shape).Idx → EReal) : (⟨2, ![NN, D]⟩ : Shape).Idx → EReal :=
  fun i => (∑ e ∈ inc dI (i 0 : Fin NN),
      lin h wt (node sI e) (i 1 : Fin D) * (dv (ix1 (node sI e)) * dv (ix1 (node dWI e))))
    + b (ix1 (i 1 : Fin D))

/-- The positive part, entry by entry. -/
def relu {s : Shape} (x : s.Idx → EReal) : s.Idx → EReal := fun i => max (x i) 0

/-- Per edge, the logistic function of the inner product of its endpoints' rows. -/
def decode (z : (⟨2, ![NN, 16]⟩ : Shape).Idx → EReal) (srcC dstC : IVec ⟨2, ![EE, 1]⟩ 32) :
    (⟨1, ![EE]⟩ : Shape).Idx → EReal :=
  fun i => Ideal.logistic (∑ k : Fin 16, z (ix2 (node srcC (i 0 : Fin EE)) k) * z (ix2 (node dstC (i 0 : Fin EE)) k))

/-- Two layers with the positive part between them, then the decoding: the target's factor outside the sums. -/
def outK (x : (⟨2, ![NN, 64]⟩ : Shape).Idx → EReal) (w1t : (⟨2, ![64, 32]⟩ : Shape).Idx → EReal)
    (b1 : (⟨1, ![32]⟩ : Shape).Idx → EReal) (w2t : (⟨2, ![32, 16]⟩ : Shape).Idx → EReal)
    (b2 : (⟨1, ![16]⟩ : Shape).Idx → EReal) (sI dI : IVec ⟨2, ![MM, 1]⟩ 32)
    (dv : (⟨1, ![NN]⟩ : Shape).Idx → EReal) (srcC dstC : IVec ⟨2, ![EE, 1]⟩ 32) : (⟨1, ![EE]⟩ : Shape).Idx → EReal :=
  decode (layerK (relu (layerK x w1t b1 sI dI dv)) w2t b2 sI dI dv) srcC dstC

/-- The same with both factors inside the sums. -/
def outR (x : (⟨2, ![NN, 64]⟩ : Shape).Idx → EReal) (w1t : (⟨2, ![64, 32]⟩ : Shape).Idx → EReal)
    (b1 : (⟨1, ![32]⟩ : Shape).Idx → EReal) (w2t : (⟨2, ![32, 16]⟩ : Shape).Idx → EReal)
    (b2 : (⟨1, ![16]⟩ : Shape).Idx → EReal) (sI dI dWI : IVec ⟨2, ![MM, 1]⟩ 32)
    (dv : (⟨1, ![NN]⟩ : Shape).Idx → EReal) (srcC dstC : IVec ⟨2, ![EE, 1]⟩ 32) : (⟨1, ![EE]⟩ : Shape).Idx → EReal :=
  decode (layerR (relu (layerR x w1t b1 sI dI dWI dv)) w2t b2 sI dI dWI dv) srcC dstC

/-- An extended real that is a real number. -/
def Fin_ (a : EReal) : Prop := a ≠ ⊥ ∧ a ≠ ⊤

end Cert.Gcn

end
-- ==== Proof.PreFacts.lean ====
/-
  THE PRECONDITION READ BACK. The printed predicate is the conjunction of seven "for all entries" tests: for each of
  the five real-valued inputs, |a| < +∞ at every entry, and for the index array, 0 ≤ e and e < 100000 at every entry,
  both compared signed. Over the extended reals |a| = max a (-a), and max a (-a) < ⊤ says exactly that a is neither
  ⊤ nor ⊥: a is a real number. A conjunction of bits is 1 when both are; a "for all" that is 1 had a 1 at every entry.
-/
import proofs.«418788_j89043261981497_3_alg».proof.Pre_finite_inputs
import proofs.«418788_j89043261981497_3_alg».proof.Proof.Gen.Pre_finite_inputs
import proofs.«418788_j89043261981497_3_alg».proof.Proof.Spec
import Idealize.ShloMosaic.Lib.ReduceAll
import Idealize.ShloMosaic.Lib.StableHlo.Predicate

noncomputable section

namespace Cert.Gcn.Pre

open Idealize.ShloMosaic Cert.Pre_finite_inputs

/-- The rank-0 shape has one index. -/
instance : Subsingleton S_.Idx := ⟨fun a b => funext fun d => d.elim0⟩

/-- The pattern 0x7F800000 is +∞. -/
theorem inf_eq_top : Ideal.ofBits .f32 0x7F800000#32 = ⊤ := by simp [Ideal.ofBits, Ideal.ieee]

/-- |a| < +∞ over the extended reals: a is a real number. -/
theorem fin_of_abs_lt (a : EReal)
    (h : Ideal.cmp .olt (max a (-a)) (Ideal.ofBits .f32 0x7F800000#32) = 1#1) : Fin_ a := by
  rw [inf_eq_top] at h
  simp only [Ideal.cmp, StableHlo.Predicate.ofBool_eq_one_iff, decide_eq_true_eq] at h
  obtain ⟨h1, h2⟩ := max_lt_iff.1 h
  exact ⟨fun hb => absurd h2 (by rw [hb]; exact lt_irrefl _), ne_of_lt h1⟩

/-- The zero word and the word 100000 read signed. -/
theorem toInt_zero : (0#32 : BitVec 32).toInt = 0 := by decide
theorem toInt_nn : (100000#32 : BitVec 32).toInt = 100000 := by decide

/-- THE PRECONDITION DECODED: every real-valued input entry is a real number, and every index lies in [0, 100000). -/
theorem decode (x : FVec Ideal S100000x64 .f32) (ei : IVec S2x3200000 32) (w1 : FVec Ideal S32x64 .f32)
    (b1 : FVec Ideal S32 .f32) (w2 : FVec Ideal S16x32 .f32) (b2 : FVec Ideal S16 .f32)
    (h : Cert.Pre_finite_inputs.fn (F := Ideal) x ei w1 b1 w2 b2 = fun _ => 1#1) :
    (∀ i, Fin_ (x i)) ∧ (∀ i, Fin_ (w1 i)) ∧ (∀ i, Fin_ (b1 i)) ∧ (∀ i, Fin_ (w2 i)) ∧ (∀ i, Fin_ (b2 i))
      ∧ (∀ i, 0 ≤ (ei i).toInt ∧ (ei i).toInt < 100000) := by
  have e := congrFun h ValueIdx.ix0
  dsimp only [Cert.Pre_finite_inputs.fn, Cert.Pre_finite_inputs.fn_part1] at e
  simp only [andi, IntOp.andi_eq_one] at e
  obtain ⟨⟨⟨⟨⟨⟨hx, hw1⟩, hb1⟩, hw2⟩, hb2⟩, hge⟩, hlt⟩ := e
  refine ⟨fun i => ?_, fun i => ?_, fun i => ?_, fun i => ?_, fun i => ?_, fun i => ⟨?_, ?_⟩⟩
  · exact fin_of_abs_lt (x i) (Host.reduce_andi_all _ _ _ _ _ hx i)
  · exact fin_of_abs_lt (w1 i) (Host.reduce_andi_all _ _ _ _ _ hw1 i)
  · exact fin_of_abs_lt (b1 i) (Host.reduce_andi_all _ _ _ _ _ hb1 i)
  · exact fin_of_abs_lt (w2 i) (Host.reduce_andi_all _ _ _ _ _ hw2 i)
  · exact fin_of_abs_lt (b2 i) (Host.reduce_andi_all _ _ _ _ _ hb2 i)
  · have c : IntOp.cmpi .sge (ei i) 0#32 = 1#1 := Host.reduce_andi_all _ _ _ _ _ hge i
    have := IntOp.cmpi_sge.1 c
    rwa [toInt_zero] at this
  · have c : IntOp.cmpi .slt (ei i) 100000#32 = 1#1 := Host.reduce_andi_all _ _ _ _ _ hlt i
    have := IntOp.cmpi_slt.1 c
    rwa [toInt_nn] at this

end Cert.Gcn.Pre

end
-- ==== Proof.RealSums.lean ====
/-
  Finite sums of real numbers inside the extended reals. On the extended reals multiplication does not distribute
  over addition (at the infinities), so every law used here is first carried to the real numbers, where it holds,
  and read back through the coercion.
-/
import Mathlib.Data.EReal.Operations
import Mathlib.Algebra.BigOperators.Ring.Finset

open scoped BigOperators

namespace Cert.RealSums

/-- An extended real is a real number when it is neither infinity. -/
def IsReal (a : EReal) : Prop := a ≠ ⊥ ∧ a ≠ ⊤

theorem isReal_coe (r : ℝ) : IsReal (r : EReal) := ⟨EReal.coe_ne_bot r, EReal.coe_ne_top r⟩

theorem IsReal.exists_coe {a : EReal} (h : IsReal a) : ∃ r : ℝ, a = (r : EReal) := by
  obtain ⟨hb, ht⟩ := h
  lift a to ℝ using ⟨ht, hb⟩
  exact ⟨a, rfl⟩

theorem isReal_zero : IsReal (0 : EReal) := by
  rw [← EReal.coe_zero]; exact isReal_coe 0

theorem IsReal.mul {a b : EReal} (ha : IsReal a) (hb : IsReal b) : IsReal (a * b) := by
  obtain ⟨r, rfl⟩ := ha.exists_coe
  obtain ⟨s, rfl⟩ := hb.exists_coe
  rw [← EReal.coe_mul]; exact isReal_coe _

theorem IsReal.add {a b : EReal} (ha : IsReal a) (hb : IsReal b) : IsReal (a + b) := by
  obtain ⟨r, rfl⟩ := ha.exists_coe
  obtain ⟨s, rfl⟩ := hb.exists_coe
  rw [← EReal.coe_add]; exact isReal_coe _

/-- The larger of two real numbers is one of them. -/
theorem IsReal.max {a b : EReal} (ha : IsReal a) (hb : IsReal b) : IsReal (max a b) := by
  rcases le_total a b with h | h
  · rw [max_eq_right h]; exact hb
  · rw [max_eq_left h]; exact ha

/-- The coercion of the reals commutes with finite sums. -/
theorem coe_sum {ι : Type*} (S : Finset ι) (f : ι → ℝ) :
    (∑ e ∈ S, ((f e : ℝ) : EReal)) = ((∑ e ∈ S, f e : ℝ) : EReal) := by
  classical
  induction S using Finset.induction_on with
  | empty => simp
  | insert a S ha ih => rw [Finset.sum_insert ha, Finset.sum_insert ha, ih, EReal.coe_add]

/-- A finite sum of real numbers is a real number. -/
theorem isReal_sum {ι : Type*} (S : Finset ι) (f : ι → EReal) (hf : ∀ e ∈ S, IsReal (f e)) :
    IsReal (∑ e ∈ S, f e) := by
  classical
  induction S using Finset.induction_on with
  | empty => simpa using isReal_zero
  | insert a S ha ih =>
    rw [Finset.sum_insert ha]
    exact (hf a (Finset.mem_insert_self a S)).add (ih fun e he => hf e (Finset.mem_insert_of_mem he))

/-- A common real factor moves into a finite sum of products of real numbers: the sum of the a e * d e, times c,
    is the sum of the a e * (d e * c). -/
theorem sum_mul_assoc {ι : Type*} (S : Finset ι) (a d : ι → EReal) (c : EReal)
    (ha : ∀ e, IsReal (a e)) (hd : ∀ e, IsReal (d e)) (hc : IsReal c) :
    (∑ e ∈ S, a e * d e) * c = ∑ e ∈ S, a e * (d e * c) := by
  choose f hf using fun e => (ha e).exists_coe
  choose g hg using fun e => (hd e).exists_coe
  obtain ⟨t, rfl⟩ := hc.exists_coe
  have h1 : (∑ e ∈ S, a e * d e) = ((∑ e ∈ S, f e * g e : ℝ) : EReal) := by
    rw [← coe_sum]; exact Finset.sum_congr rfl fun e _ => by rw [hf e, hg e, EReal.coe_mul]
  have h2 : (∑ e ∈ S, a e * (d e * (t : EReal))) = ((∑ e ∈ S, f e * (g e * t) : ℝ) : EReal) := by
    rw [← coe_sum]
    exact Finset.sum_congr rfl fun e _ => by rw [hf e, hg e, EReal.coe_mul, EReal.coe_mul]
  rw [h1, h2, ← EReal.coe_mul, Finset.sum_mul]
  congr 1
  exact Finset.sum_congr rfl fun e _ => mul_assoc _ _ _

end Cert.RealSums
-- ==== Proof.Bridge.lean ====
/-
  THE ALGEBRA. The two layers differ only in where the target node's factor multiplies: outside the sum over the rows
  landing on a node, or inside it, row by row. For every node v,
      (Σ_{e lands on v} a_e · δ_{s(e)}) · δ_v + b  =  Σ_{e lands on v} a_e · (δ_{s(e)} · δ_v) + b ,
  because every term is a real number (on the extended reals distributivity fails at the infinities); and for a row e
  landing on v the node the second column names is v itself. So the two layers agree on real inputs, a layer's entries
  are again real, the positive part of a real is real, and the two programs' results agree.
-/
import proofs.«418788_j89043261981497_3_alg».proof.Proof.Spec
import proofs.«418788_j89043261981497_3_alg».proof.Proof.RealSums

open scoped BigOperators

noncomputable section

namespace Cert.Gcn

open Idealize.ShloMosaic Idealize.ShloMosaic.ValueIdx Idealize.ShloMosaic.RowOps
  Idealize.ShloMosaic.StableHlo.Predicate Cert.RealSums

/-- An entry of the product of real matrices is real. -/
theorem lin_fin {K D : Nat} (h : (⟨2, ![NN, K]⟩ : Shape).Idx → EReal) (wt : (⟨2, ![K, D]⟩ : Shape).Idx → EReal)
    (hh : ∀ i, Fin_ (h i)) (hw : ∀ i, Fin_ (wt i)) (v : Fin NN) (j : Fin D) : Fin_ (lin h wt v j) := by
  unfold lin
  exact isReal_sum _ _ fun k _ => IsReal.mul (hh _) (hw _)

/-- On real inputs the two layers agree: the target's factor, a real number, moves into the sum, and on a row
    landing on node v the second column names v. -/
theorem layer_eq {K D : Nat} (h : (⟨2, ![NN, K]⟩ : Shape).Idx → EReal) (wt : (⟨2, ![K, D]⟩ : Shape).Idx → EReal)
    (b : (⟨1, ![D]⟩ : Shape).Idx → EReal) (sI dI dWI : IVec ⟨2, ![MM, 1]⟩ 32)
    (dv : (⟨1, ![NN]⟩ : Shape).Idx → EReal)
    (hh : ∀ i, Fin_ (h i)) (hw : ∀ i, Fin_ (wt i)) (hdv : ∀ i, Fin_ (dv i))
    (hW : ∀ (e : Fin MM) (v : Fin NN), RowOps.lands dI e v.val → node dWI e = v) :
    layerK h wt b sI dI dv = layerR h wt b sI dI dWI dv := by
  funext i
  have key : (∑ e ∈ inc dI (i 0 : Fin NN), lin h wt (node sI e) (i 1 : Fin D) * dv (ix1 (node sI e)))
        * dv (ix1 (i 0 : Fin NN))
      = ∑ e ∈ inc dI (i 0 : Fin NN),
          lin h wt (node sI e) (i 1 : Fin D) * (dv (ix1 (node sI e)) * dv (ix1 (node dWI e))) := by
    refine (sum_mul_assoc (inc dI (i 0 : Fin NN)) (fun e => lin h wt (node sI e) (i 1 : Fin D))
      (fun e => dv (ix1 (node sI e))) (dv (ix1 (i 0 : Fin NN)))
      (fun e => lin_fin h wt hh hw _ _) (fun e => hdv _) (hdv _)).trans ?_
    refine Finset.sum_congr rfl fun e he => ?_
    have he' : e ∈ Finset.univ.filter (fun e : Fin MM => lands dI e (i 0 : Fin NN).val) := he
    have hv : node dWI e = (i 0 : Fin NN) := hW e (i 0 : Fin NN) (Finset.mem_filter.mp he').2
    show lin h wt (node sI e) (i 1 : Fin D) * (dv (ix1 (node sI e)) * dv (ix1 (i 0 : Fin NN)))
      = lin h wt (node sI e) (i 1 : Fin D) * (dv (ix1 (node sI e)) * dv (ix1 (node dWI e)))
    rw [hv]
  show (∑ e ∈ inc dI (i 0 : Fin NN), lin h wt (node sI e) (i 1 : Fin D) * dv (ix1 (node sI e)))
        * dv (ix1 (i 0 : Fin NN)) + b (ix1 (i 1 : Fin D))
      = (∑ e ∈ inc dI (i 0 : Fin NN),
          lin h wt (node sI e) (i 1 : Fin D) * (dv (ix1 (node sI e)) * dv (ix1 (node dWI e))))
        + b (ix1 (i 1 : Fin D))
  rw [key]

/-- A layer's entries are real when its inputs are. -/
theorem layerK_fin {K D : Nat} (h : (⟨2, ![NN, K]⟩ : Shape).Idx → EReal) (wt : (⟨2, ![K, D]⟩ : Shape).Idx → EReal)
    (b : (⟨1, ![D]⟩ : Shape).Idx → EReal) (sI dI : IVec ⟨2, ![MM, 1]⟩ 32)
    (dv : (⟨1, ![NN]⟩ : Shape).Idx → EReal)
    (hh : ∀ i, Fin_ (h i)) (hw : ∀ i, Fin_ (wt i)) (hb : ∀ i, Fin_ (b i)) (hdv : ∀ i, Fin_ (dv i)) :
    ∀ i, Fin_ (layerK h wt b sI dI dv i) := by
  intro i
  unfold layerK
  exact IsReal.add
    (IsReal.mul (isReal_sum _ _ fun e _ => IsReal.mul (lin_fin h wt hh hw _ _) (hdv _)) (hdv _)) (hb _)

/-- The positive part of a real number is real. -/
theorem relu_fin {s : Shape} (x : s.Idx → EReal) (hx : ∀ i, Fin_ (x i)) : ∀ i, Fin_ (relu x i) := by
  intro i
  unfold relu
  exact IsReal.max (hx i) isReal_zero

/-- The two programs' results agree on real inputs. -/
theorem bridge (x : (⟨2, ![NN, 64]⟩ : Shape).Idx → EReal) (w1t : (⟨2, ![64, 32]⟩ : Shape).Idx → EReal)
    (b1 : (⟨1, ![32]⟩ : Shape).Idx → EReal) (w2t : (⟨2, ![32, 16]⟩ : Shape).Idx → EReal)
    (b2 : (⟨1, ![16]⟩ : Shape).Idx → EReal) (sI dI dWI : IVec ⟨2, ![MM, 1]⟩ 32)
    (dv : (⟨1, ![NN]⟩ : Shape).Idx → EReal) (srcC dstC : IVec ⟨2, ![EE, 1]⟩ 32)
    (hx : ∀ i, Fin_ (x i)) (hw1 : ∀ i, Fin_ (w1t i)) (hb1 : ∀ i, Fin_ (b1 i)) (hw2 : ∀ i, Fin_ (w2t i))
    (hb2 : ∀ i, Fin_ (b2 i)) (hdv : ∀ i, Fin_ (dv i))
    (hW : ∀ (e : Fin MM) (v : Fin NN), RowOps.lands dI e v.val → node dWI e = v) :
    outK x w1t b1 w2t b2 sI dI dv srcC dstC = outR x w1t b1 w2t b2 sI dI dWI dv srcC dstC := by
  unfold outK outR
  have hr : ∀ i, Fin_ (relu (layerK x w1t b1 sI dI dv) i) :=
    relu_fin _ (layerK_fin x w1t b1 sI dI dv hx hw1 hb1 hdv)
  rw [layer_eq (relu (layerK x w1t b1 sI dI dv)) w2t b2 sI dI dWI dv hr hw2 hdv hW,
    layer_eq x w1t b1 sI dI dWI dv hx hw1 hdv hW]

end Cert.Gcn

end
-- ==== Proof.LibColumnTake.lean ====
/-
  THE TAKE ALONG A TABLE'S SECOND AXIS, and the words of an index that is in range.

  A host `stablehlo.gather` of a [D × N] table whose start indices are an [n × 1] column, the table's second axis
  collapsed and start-indexed and its first axis whole (slice sizes [D, 1]) and read by the result's offset axis 0, reads
  at result element (j, e) the table's element (j, r), r the start index of row `e` read signed and clamped into the table
  (`gather_cols`; the mirror image of the row take `gather_rows`). Around such a gather a `take` wraps a negative index
  by the axis length, tests the wrapped index against [0, length − 1] by an and-reduction over the unit axis of the
  column, and keeps the gathered element where the test holds. For a word that reads signed as a number in range the wrap
  is idle (`wrap_word`), the test holds (`range_word`), the and-reduction over the unit axis of an [n × 1] column of bits
  is 1 at a row whose bit is 1 (`reduce_andi_col1`), and a vector laid along one axis of a rectangle reads its own entry
  (`bcast_along1`, `bcast_along0`).
-/
import proofs.«418788_j89043261981497_3_alg».proof.Proof.LibGatherScatter
import Idealize.ShloMosaic.Lib.StableHlo.Predicate
import Idealize.ShloMosaic.Lib.ValueIdx
import Idealize.ShloMosaic.Lib.Pipeline.Value
import Idealize.ShloMosaic.PureOps.Reduce

open scoped BigOperators

namespace Idealize.ShloMosaic.RowOps

open Idealize.ShloMosaic Idealize.ShloMosaic.ValueIdx Idealize.ShloMosaic.StableHlo.Predicate

/-! ## The take along the second axis -/

/-- Every element of a one-element list is that element. -/
private theorem getElem_singleton_of_eq' {β : Type} {l : List β} {b : β} (h : l = [b]) (k : Nat) (hk : k < l.length) :
    l[k] = b :=
  List.mem_singleton.1 (h ▸ List.getElem_mem hk)

/-- THE COLUMN TAKE. A `stablehlo.gather` of a [D × N] operand whose start indices are an [n × 1] column of column
    numbers: operand axis 1 collapsed and start-indexed, operand axis 0 whole (slice sizes [D, 1]) and read by the
    result's offset axis 0, no batching axes, the index vector on axis 1. Result element (j, e) is the operand's element
    (j, r), r the start index of row `e` read signed and clamped into [0, N − 1]. -/
theorem gather_cols {α : Type} {N D n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1) (hss : d.sliceSizes = ![D, 1])
    (x : (⟨2, ![D, N]⟩ : Shape).Idx → α) (idx : IVec ⟨2, ![n, 1]⟩ w) (j : Fin D) (e : Fin n) (hN : 0 < N) :
    Host.gather d x idx (ix2 j e) = x (ix2 j (clampRow N hN idx e)) := by
  have hb : ∀ a : Fin 2, a ∉ d.operandBatchingDims := fun a => by rw [hob]; exact List.not_mem_nil
  -- the result's batch axes: the one axis that is not the offset axis
  have hbd : d.batchDims = [1] := by
    show Shape.kept _ d.offsetDims = [1]
    rw [hoff]
    show (List.finRange 2).filter (fun a : Fin 2 => a ∉ [(0 : Fin 2)]) = [1]
    decide
  -- axis 1: collapsed and start-indexed, the clamped start alone
  have h1 : (d.operandIdx (ix2 j e) idx (1 : Fin 2)).val = (clampRow N hN idx e).val := by
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := by rw [hss]; rfl
    show d.start (ix2 j e) idx 1 + d.batchCoord (ix2 j e) 1 + d.offCoord (ix2 j e) 1 = min (idx (ixP e)).toInt.toNat (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 1 → ((ix2 j e : (⟨2, ![D, n]⟩ : Shape).Idx) X).val = e.val := fun X hX => by subst hX; rfl
      exact he _ (getElem_singleton_of_eq' hbd _ _)
    | ⟨1, _⟩ =>
      unfold GatherDims.siIdx
      rw [dif_pos (by rw [hivd])]
      apply Fin.ext
      show List.idxOf (1 : Fin 2) d.startIndexMap = 0
      rw [hsim]; simp
  -- axis 0: neither start-indexed nor collapsed, the offset coordinate alone
  have h0 : (d.operandIdx (ix2 j e) idx (0 : Fin 2)).val = j.val := by
    have hk : (0 : Fin 2) ∈ d.sKept := by rw [GatherDims.mem_sKept, hcoll, hob]; simp
    have hm : (0 : Fin 2) ∉ d.startIndexMap := by rw [hsim]; simp
    show d.start (ix2 j e) idx 0 + d.batchCoord (ix2 j e) 0 + d.offCoord (ix2 j e) 0 = j.val
    rw [GatherDims.batchCoord_eq_zero _ _ _ (hb 0), Nat.add_zero]
    unfold GatherDims.start GatherDims.offCoord
    rw [dif_neg hm, dif_pos hk, Nat.zero_add]
    have hj : ∀ X : Fin 2, X = 0 → ((ix2 j e : (⟨2, ![D, n]⟩ : Shape).Idx) X).val = j.val := fun X hX => by subst hX; rfl
    exact hj _ (getElem_singleton_of_eq' hoff _ _)
  unfold Host.gather
  congr 1
  funext a
  apply Fin.ext
  match a with
  | ⟨0, _⟩ => exact h0
  | ⟨1, _⟩ => exact h1

/-! ## The words of an index in range -/

/-- A word that reads signed as a non-negative number is not below zero, so the wrap keeps the word itself. -/
theorem wrap_word (N x : BitVec 32) (h0 : 0 ≤ x.toInt) :
    Scalar.select (IntOp.cmpi .slt x 0#32) (IntOp.addi x N) x = x := by
  have hc : IntOp.cmpi .slt x 0#32 = 0#1 := by
    show BitVec.ofBool (x.slt 0#32) = 0#1
    have hs : x.slt 0#32 = false := by
      have hz : (0#32 : BitVec 32).toInt = 0 := by decide
      simp only [BitVec.slt, hz, decide_eq_false_iff_not, not_lt]
      exact h0
    rw [hs]; rfl
  rw [hc]; exact select_zero _ _

/-- A word that reads signed as a number in [0, M] passes both comparisons of the range test. -/
theorem range_word (M x : BitVec 32) (h0 : 0 ≤ x.toInt) (h1 : x.toInt ≤ M.toInt) :
    IntOp.andi (IntOp.cmpi .sge x 0#32) (IntOp.cmpi .sle x M) = 1#1 := by
  have hz : (0#32 : BitVec 32).toInt = 0 := by decide
  have hge : IntOp.cmpi .sge x 0#32 = 1#1 := by
    show BitVec.ofBool ((0#32 : BitVec 32).sle x) = 1#1
    have hs : (0#32 : BitVec 32).sle x = true := by
      simp only [BitVec.sle, hz, decide_eq_true_eq]; exact h0
    rw [hs]; rfl
  have hle : IntOp.cmpi .sle x M = 1#1 := by
    show BitVec.ofBool (x.sle M) = 1#1
    have hs : x.sle M = true := by
      simp only [BitVec.sle, decide_eq_true_eq]; exact h1
    rw [hs]; rfl
  rw [hge, hle]; rfl

/-! ## The and-reduction over the unit axis of a column, and a vector laid along an axis -/

/-- A fold of `and` from 1 over bits that are all 1 is 1. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons.2 (Or.inr hi)))]
    rfl

/-- The `and`-reduction of an [n × 1] column of bits over its unit axis, from the initial bit 1, is 1 at every row whose
    bit is 1. -/
theorem reduce_andi_col1 {n : Nat} {u : Shape} (x : IVec ⟨2, ![n, 1]⟩ 1) (init : u.Idx → BitVec 1)
    (h : (⟨2, ![n, 1]⟩ : Shape).ReducesTo [1] ⟨1, ![n]⟩) (hu : 0 < u.numel) (hinit : init (Shape.Idx.first hu) = 1#1)
    (e : Fin n) (hx : x (ixP e) = 1#1) :
    Host.reduce IntOp.andi x init h hu (ix1 e) = 1#1 := by
  rw [Host.reduce_eq_fold, hinit]
  refine fold_andi_one _ _ fun i hi => ?_
  have hd : h.drop i = ix1 e := (Finset.mem_filter.1 hi).2
  have hv : (h.drop i 0 : Nat) = i 0 := Shape.ReducesTo.drop_apply_val h i 0
  have h0 : (i 0).val = e.val := by rw [← hv, hd]; rfl
  have hi' : i = ixP e := by
    funext a
    match a with
    | ⟨0, _⟩ => exact Fin.ext h0
    | ⟨1, _⟩ => exact Subsingleton.elim (α := Fin 1) _ _
  rw [hi']; exact hx

/-- A vector laid along the SECOND axis of a [D × n] rectangle (dims [1]) reads, at (j, e), its entry `e`. -/
theorem bcast_along1 {α : Type} {D n : Nat} (hn : n ≠ 1) (h : (⟨1, ![n]⟩ : Shape).BroadcastsInDim ⟨2, ![D, n]⟩ ![1])
    (v : (⟨1, ![n]⟩ : Shape).Idx → α) (j : Fin D) (e : Fin n) :
    broadcastInDim ⟨2, ![D, n]⟩ ![1] h v (ix2 j e) = v (ix1 e) := by
  refine broadcastInDim_apply _ h v (ix2 j e) (ix1 e) fun a => ?_
  match a with
  | ⟨0, _⟩ =>
    show e.val = if n = 1 then 0 else e.val
    rw [if_neg hn]

/-- A vector laid along the FIRST axis of an [n × D] rectangle (dims [0]) reads, at (e, f), its entry `e`. -/
theorem bcast_along0 {α : Type} {D n : Nat} (hn : n ≠ 1) (h : (⟨1, ![n]⟩ : Shape).BroadcastsInDim ⟨2, ![n, D]⟩ ![0])
    (v : (⟨1, ![n]⟩ : Shape).Idx → α) (e : Fin n) (f : Fin D) :
    broadcastInDim ⟨2, ![n, D]⟩ ![0] h v (ix2 e f) = v (ix1 e) := by
  refine broadcastInDim_apply _ h v (ix2 e f) (ix1 e) fun a => ?_
  match a with
  | ⟨0, _⟩ =>
    show e.val = if n = 1 then 0 else e.val
    rw [if_neg hn]

end Idealize.ShloMosaic.RowOps
-- ==== Proof.RefFacts.lean ====
/-
  THE REFERENCE'S INDEX COLUMNS AND ITS DEGREE VECTOR. The reference counts, per node, the update rows (edges, then one self
  loop per node) whose target index reads signed as that node: a sum of ones, so a natural number as a real. Its per-node
  factor is the inverse square root of that count where the count is positive and zero elsewhere: a real number at every
  node, whatever the indices are. A row that lands on a node has a target index that reads signed as a number that is not
  negative, so the wrap of negative indices keeps it and the clamped read of the wrapped column names the same node. Under
  the precondition that every edge index lies in [0, 100000) the wrapped source and target columns of the edges read signed
  in [0, 99999]. A transposed weight matrix of real numbers consists of real numbers.
-/
import proofs.«418788_j89043261981497_3_alg».proof.Proof.RefRead
import proofs.«418788_j89043261981497_3_alg».proof.Proof.Spec
import proofs.«418788_j89043261981497_3_alg».proof.Proof.LibGatherScatter
import proofs.«418788_j89043261981497_3_alg».proof.Proof.LibColumnTake
import Idealize.ShloMosaic.Lib.IdealHost

open scoped BigOperators

noncomputable section

namespace Cert.ReferenceIdeal.Gcn

open Cert.ReferenceIdeal Cert.ReferenceIdeal.Gen Cert.Gcn Idealize.ShloMosaic Idealize.ShloMosaic.ValueIdx Idealize.ShloMosaic.RowOps
  Idealize.ShloMosaic.StableHlo.Predicate

/-! ## The degree vector and the per-node factor -/

/-- A finite sum of ones is a real number that is not negative. -/
theorem sum_ones_real {ι : Type} (S : Finset ι) : ∃ r : ℝ, 0 ≤ r ∧ (∑ _e ∈ S, (1 : EReal)) = (r : EReal) := by
  induction S using Finset.cons_induction with
  | empty => exact ⟨0, le_refl _, by rw [Finset.sum_empty, EReal.coe_zero]⟩
  | cons a S ha ih =>
    obtain ⟨r, hr, h⟩ := ih
    refine ⟨1 + r, by linarith, ?_⟩
    rw [Finset.sum_cons, h, EReal.coe_add, EReal.coe_one]

/-- The inverse square root of a real that is not negative, kept only where the real is positive and replaced by zero
    elsewhere, is a real number. -/
theorem fin_select_rsqrt (r : ℝ) (hr : 0 ≤ r) :
    Fin_ (Scalar.select (Ideal.cmp .ogt (r : EReal) 0) (Ideal.rsqrt (r : EReal)) 0) := by
  by_cases h : 0 < r
  · have hc : Ideal.cmp .ogt (r : EReal) 0 = 1#1 := by
      show BitVec.ofBool (decide ((0 : EReal) < (r : EReal))) = 1#1
      rw [decide_eq_true (by exact_mod_cast h)]; rfl
    rw [hc, select_one, Ideal.rsqrt_coe, if_neg (not_lt.mpr hr), if_neg (ne_of_gt h)]
    exact ⟨EReal.coe_ne_bot _, EReal.coe_ne_top _⟩
  · have hc : Ideal.cmp .ogt (r : EReal) 0 = 0#1 := by
      show BitVec.ofBool (decide ((0 : EReal) < (r : EReal))) = 0#1
      rw [decide_eq_false (by exact_mod_cast h)]; rfl
    rw [hc, select_zero]
    exact ⟨EReal.zero_ne_bot, EReal.zero_ne_top⟩

/-- The scatter-add of ones into zeros at a column of positions counts, per position, the rows landing there. -/
theorem count_rows (x : (⟨S100000, .f32⟩ : BufTy).Contents (Elt Ideal)) (idx : (⟨S3300000x1, .i32⟩ : BufTy).Contents (Elt Ideal))
    (upd : (⟨S3300000, .f32⟩ : BufTy).Contents (Elt Ideal)) (hx : ∀ i, x i = 0) (hu : ∀ i, upd i = 1) (v : Fin NN) :
    Host.scatterAdd (F := Ideal) (φ := .f32) scatter_S100000_S3300000x1_S3300000_n_0_0_1 x idx upd (ix1 v) = ∑ _e ∈ inc idx v, (1 : EReal) := by
  unfold Host.scatterAdd
  rw [Ideal.hostScatterAdd_def, scatterAdd_row1 _ rfl rfl rfl rfl, hx, zero_add]
  exact Finset.sum_congr rfl fun e _ => hu _

/-- The zero-filled vector the degrees are summed into. -/
theorem zeros_apply (i : S100000.Idx) : ReadP.val_main_v8 (F := Ideal) i = 0 := by
  rw [ReadP.val_main_v8_apply, ReadP.val_main_cst_0_apply, Ideal.ofBits_def, Ideal.ofBits_zero_f32]

/-- The vector of ones that is summed. -/
theorem ones_apply (i : S3300000.Idx) : ReadP.val_main_v7 (F := Ideal) i = 1 := by
  rw [ReadP.val_main_v7_apply, ReadP.val_main_cst_apply, Ideal.ofBits_def, Ideal.ofBits_one_f32]

/-- The degree of node `v`: the number of update rows whose target index reads signed as `v`. -/
theorem degree_eq (x1 : (⟨S2x3200000, .i32⟩ : BufTy).Contents (Elt Ideal)) (v : Fin NN) :
    ReadP.val_main_v10 (F := Ideal) x1 (ix1 v) = ∑ _e ∈ inc (ReadP.val_main_v9 (F := Ideal) x1) v, (1 : EReal) := by
  unfold ReadP.val_main_v10
  exact count_rows _ _ _ zeros_apply ones_apply v

/-- (a) The per-node factor is a real number at every node. -/
theorem dinv_fin (x1 : (⟨S2x3200000, .i32⟩ : BufTy).Contents (Elt Ideal)) :
    ∀ i, Fin_ (ReadP.val_main_v14 (F := Ideal) x1 i) := by
  have key : ∀ j : S100000.Idx, Fin_ (ReadP.val_main_v14 (F := Ideal) x1 j) := by
    intro j
    obtain ⟨r, hr, hdeg⟩ := sum_ones_real (inc (ReadP.val_main_v9 (F := Ideal) x1) (j 0 : Fin NN))
    have hv10 : ReadP.val_main_v10 (F := Ideal) x1 j = (r : EReal) :=
      (congrArg (ReadP.val_main_v10 (F := Ideal) x1) (eq_ix1 j)).trans ((degree_eq x1 (j 0 : Fin NN)).trans hdeg)
    have hzero : ReadP.val_main_v11 (F := Ideal) j = 0 := by
      rw [ReadP.val_main_v11_apply, ReadP.val_main_cst_1_apply, Ideal.ofBits_def, Ideal.ofBits_zero_f32]
    have hfill : ReadP.val_main_call0_v1 (F := Ideal) j = 0 := by
      rw [ReadP.val_main_call0_v1_apply, ReadP.val_main_call0_v0_apply, ReadP.val_main_cst_2_apply, Ideal.ofBits_def,
        Ideal.ofBits_zero_f32]
    rw [ReadP.val_main_v14_apply, ReadP.val_main_v12_apply, ReadP.val_main_v13_apply, hv10, hzero, hfill, Ideal.cmpf_def,
      Ideal.hostUnary_rsqrt_def]
    exact fin_select_rsqrt r hr
  exact fun i => key i

/-! ## The target column and its wrapped copy -/

/-- (b) A row that lands on node `v` (its target index reads signed as `v`) names `v` in the wrapped target column too. -/
theorem dW_lands (x1 : (⟨S2x3200000, .i32⟩ : BufTy).Contents (Elt Ideal)) :
    ∀ (e : Fin MM) (v : Fin NN), lands (ReadP.val_main_v9 (F := Ideal) x1) e v.val →
      node (ReadP.val_main_v27 (F := Ideal) x1) e = v := by
  intro e v h
  refine clampRow_of_lands hNN (ReadP.val_main_v27 (F := Ideal) x1) e v ?_
  unfold lands at h ⊢
  rw [ReadP.val_main_v9_apply] at h
  have hj : ReadP.idx_main_v27 (ixP e) = ReadP.idx_main_v9 (ixP e) := rfl
  rw [ReadP.val_main_v27_apply, ReadP.val_main_v26_apply, ReadP.val_main_v23_apply, ReadP.val_main_v25_apply,
    ReadP.val_main_v22_apply, ReadP.val_main_c_4_apply, ReadP.val_main_v24_apply, ReadP.val_main_c_5_apply, hj,
    wrap_word 100000#32 _ (by rw [h]; exact Int.natCast_nonneg _)]
  exact h

/-! ## The edges' source and target columns under the precondition -/

/-- A word in [0, 100000) is kept by the wrap and reads signed in [0, 99999]. -/
theorem wrap_range (w : BitVec 32) (h : 0 ≤ w.toInt ∧ w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  rw [wrap_word 100000#32 w h.1]
  exact ⟨h.1, by omega⟩

/-- (c) The wrapped source column of the edges reads signed in [0, 99999]. -/
theorem src_range (x1 : (⟨S2x3200000, .i32⟩ : BufTy).Contents (Elt Ideal))
    (hidx : ∀ i, 0 ≤ (x1 i).toInt ∧ (x1 i).toInt < 100000) :
    ∀ e : Fin EE, 0 ≤ ((ReadP.val_main_v98 (F := Ideal) x1) (ixP e)).toInt
      ∧ ((ReadP.val_main_v98 (F := Ideal) x1) (ixP e)).toInt ≤ 99999 := by
  intro e
  rw [ReadP.val_main_v98_apply, ReadP.val_main_v97_apply, ReadP.val_main_v94_apply, ReadP.val_main_v96_apply,
    ReadP.val_main_v93_apply, ReadP.val_main_c_20_apply, ReadP.val_main_v95_apply, ReadP.val_main_c_21_apply,
    ReadP.val_main_v1_apply, ReadP.val_main_v0_apply]
  exact wrap_range _ (hidx _)

/-- (c) The wrapped target column of the edges reads signed in [0, 99999]. -/
theorem dst_range (x1 : (⟨S2x3200000, .i32⟩ : BufTy).Contents (Elt Ideal))
    (hidx : ∀ i, 0 ≤ (x1 i).toInt ∧ (x1 i).toInt < 100000) :
    ∀ e : Fin EE, 0 ≤ ((ReadP.val_main_v105 (F := Ideal) x1) (ixP e)).toInt
      ∧ ((ReadP.val_main_v105 (F := Ideal) x1) (ixP e)).toInt ≤ 99999 := by
  intro e
  rw [ReadP.val_main_v105_apply, ReadP.val_main_v104_apply, ReadP.val_main_v101_apply, ReadP.val_main_v103_apply,
    ReadP.val_main_v100_apply, ReadP.val_main_c_22_apply, ReadP.val_main_v102_apply, ReadP.val_main_c_23_apply,
    ReadP.val_main_v3_apply, ReadP.val_main_v2_apply]
  exact wrap_range _ (hidx _)

/-! ## The transposed weights -/

/-- (d) The transpose of a first-layer weight matrix of real numbers consists of real numbers. -/
theorem w1t_fin (x2 : (⟨S32x64, .f32⟩ : BufTy).Contents (Elt Ideal)) (h : ∀ i, Fin_ (x2 i)) :
    ∀ i, Fin_ (ReadP.val_main_v30 (F := Ideal) x2 i) := by
  intro i
  rw [ReadP.val_main_v30_apply]
  exact h _

/-- (d) The same for the second layer's weights. -/
theorem w2t_fin (x4 : (⟨S16x32, .f32⟩ : BufTy).Contents (Elt Ideal)) (h : ∀ i, Fin_ (x4 i)) :
    ∀ i, Fin_ (ReadP.val_main_v75 (F := Ideal) x4 i) := by
  intro i
  rw [ReadP.val_main_v75_apply]
  exact h _

end Cert.ReferenceIdeal.Gcn

end
-- ==== Proof.RefValue.lean ====
/-
  THE REFERENCE'S VALUE. Read one operation at a time, the reference program is two layers of the graph convolution with
  both endpoints' factors inside the sums (`Cert.Gcn.layerR`), the positive part between them, and the decoding: per
  edge the logistic function of the inner product of its endpoints' final rows. Each layer is a product with the
  transposed weights, a take of the product's rows at the rows' sources, a scaling of each taken row by the product of
  the factors taken at its source and at its clamped target, a sum of the scaled rows into a zero table at the rows'
  targets, and the bias added to every row.
-/
import proofs.«418788_j89043261981497_3_alg».proof.Proof.RefRead
import proofs.«418788_j89043261981497_3_alg».proof.Proof.Spec
import proofs.«418788_j89043261981497_3_alg».proof.Proof.LibGatherScatter
import Idealize.ShloMosaic.Lib.ValueIdx
import Idealize.ShloMosaic.PureOps.Ideal.Laws

open scoped BigOperators

noncomputable section

namespace Cert.ReferenceIdeal.Gcn

open Idealize.ShloMosaic Idealize.ShloMosaic.ValueIdx Idealize.ShloMosaic.RowOps
  Idealize.ShloMosaic.StableHlo.Predicate Cert.Gcn Cert.ReferenceIdeal Cert.ReferenceIdeal.ReadP

/-! ## Shapes of the pieces, for any table width -/

/-- The pattern of the number one in the 32-bit format is one. -/
theorem one_f32 : Ideal.ofBits .f32 0x3F800000#32 = 1 := by
  simp [Ideal.ofBits, Ideal.ieee, -EReal.coe_mul]; norm_num

/-- THE SUM OF A LAYER. Rows taken from a table `P` at the sources, each scaled by the product of the factors taken at
    the row's source and at the row's (clamped) target, and summed into a zero table at the rows' targets: node `v`,
    column `j` receives the sum over the rows landing on `v`. -/
theorem scatter_rows_value {D : Nat}
    (gd : GatherDims ⟨2, ![NN, D]⟩ ⟨2, ![MM, 1]⟩ ⟨2, ![MM, D]⟩)
    (hoff : gd.offsetDims = [1]) (hcoll : gd.collapsedSliceDims = [0]) (hob : gd.operandBatchingDims = [])
    (hsim : gd.startIndexMap = [0]) (hivd : gd.indexVectorDim = 1) (hss : gd.sliceSizes = ![1, D])
    (g1 : GatherDims ⟨1, ![NN]⟩ ⟨2, ![MM, 1]⟩ ⟨1, ![MM]⟩)
    (h1coll : g1.collapsedSliceDims = [0]) (h1ob : g1.operandBatchingDims = []) (h1sim : g1.startIndexMap = [0])
    (h1ivd : g1.indexVectorDim = 1)
    (sd : ScatterDims ⟨2, ![NN, D]⟩ ⟨2, ![MM, 1]⟩ ⟨2, ![MM, D]⟩)
    (huw : sd.updateWindowDims = [1]) (hiw : sd.insertedWindowDims = [0]) (hsd : sd.scatterDimsToOperandDims = [0])
    (hsivd : sd.indexVectorDim = 1)
    (P : (⟨2, ![NN, D]⟩ : Shape).Idx → EReal) (dv : (⟨1, ![NN]⟩ : Shape).Idx → EReal)
    (sI dI dWI : IVec ⟨2, ![MM, 1]⟩ 32)
    (z : (⟨2, ![NN, D]⟩ : Shape).Idx → EReal) (hz : ∀ i, z i = 0)
    (upd : (⟨2, ![MM, D]⟩ : Shape).Idx → EReal)
    (hupd : ∀ (e : Fin MM) (j : Fin D), upd (ix2 e j)
      = Host.gather gd P sI (ix2 e j) * (Host.gather g1 dv sI (ix1 e) * Host.gather g1 dv dWI (ix1 e)))
    (v : Fin NN) (j : Fin D) :
    Ideal.hostScatterAdd sd z dI upd (ix2 v j)
      = ∑ e ∈ inc dI v, P (ix2 (node sI e) j) * (dv (ix1 (node sI e)) * dv (ix1 (node dWI e))) := by
  rw [scatterAdd_rows sd huw hiw hsd hsivd, hz, zero_add]
  unfold inc
  refine Finset.sum_congr rfl fun e _ => ?_
  rw [hupd, gather_rows gd hoff hcoll hob hsim hivd hss P sI e j hNN, gather_row1 g1 h1coll h1ob h1sim h1ivd dv sI e hNN,
    gather_row1 g1 h1coll h1ob h1sim h1ivd dv dWI e hNN]

/-- A LAYER FROM ITS PIECES. If `P` is the product of the features with the weights, `upd` the taken and scaled rows,
    `z` a zero table, and `out` the sum of the rows into `z` plus the bias, then `out` is the layer with both
    factors inside the sum. -/
theorem layerR_of_pieces {K D : Nat}
    (gd : GatherDims ⟨2, ![NN, D]⟩ ⟨2, ![MM, 1]⟩ ⟨2, ![MM, D]⟩)
    (hoff : gd.offsetDims = [1]) (hcoll : gd.collapsedSliceDims = [0]) (hob : gd.operandBatchingDims = [])
    (hsim : gd.startIndexMap = [0]) (hivd : gd.indexVectorDim = 1) (hss : gd.sliceSizes = ![1, D])
    (g1 : GatherDims ⟨1, ![NN]⟩ ⟨2, ![MM, 1]⟩ ⟨1, ![MM]⟩)
    (h1coll : g1.collapsedSliceDims = [0]) (h1ob : g1.operandBatchingDims = []) (h1sim : g1.startIndexMap = [0])
    (h1ivd : g1.indexVectorDim = 1)
    (sd : ScatterDims ⟨2, ![NN, D]⟩ ⟨2, ![MM, 1]⟩ ⟨2, ![MM, D]⟩)
    (huw : sd.updateWindowDims = [1]) (hiw : sd.insertedWindowDims = [0]) (hsd : sd.scatterDimsToOperandDims = [0])
    (hsivd : sd.indexVectorDim = 1)
    (h : (⟨2, ![NN, K]⟩ : Shape).Idx → EReal) (wt : (⟨2, ![K, D]⟩ : Shape).Idx → EReal)
    (b : (⟨1, ![D]⟩ : Shape).Idx → EReal) (sI dI dWI : IVec ⟨2, ![MM, 1]⟩ 32)
    (dv : (⟨1, ![NN]⟩ : Shape).Idx → EReal)
    (P : (⟨2, ![NN, D]⟩ : Shape).Idx → EReal) (hP : ∀ (v : Fin NN) (j : Fin D), P (ix2 v j) = lin h wt v j)
    (z : (⟨2, ![NN, D]⟩ : Shape).Idx → EReal) (hz : ∀ i, z i = 0)
    (upd : (⟨2, ![MM, D]⟩ : Shape).Idx → EReal)
    (hupd : ∀ (e : Fin MM) (j : Fin D), upd (ix2 e j)
      = Host.gather gd P sI (ix2 e j) * (Host.gather g1 dv sI (ix1 e) * Host.gather g1 dv dWI (ix1 e)))
    (out : (⟨2, ![NN, D]⟩ : Shape).Idx → EReal)
    (hout : ∀ (v : Fin NN) (j : Fin D), out (ix2 v j) = Ideal.hostScatterAdd sd z dI upd (ix2 v j) + b (ix1 j)) :
    out = layerR h wt b sI dI dWI dv := by
  funext i
  obtain ⟨v, j, rfl⟩ : ∃ (v : Fin NN) (j : Fin D), i = ix2 v j := ⟨i 0, i 1, eq_ix2 i⟩
  rw [hout, scatter_rows_value gd hoff hcoll hob hsim hivd hss g1 h1coll h1ob h1sim h1ivd sd huw hiw hsd hsivd P dv sI dI dWI
    z hz upd hupd v j]
  show _ = (∑ e ∈ inc dI v, lin h wt (node sI e) j * (dv (ix1 (node sI e)) * dv (ix1 (node dWI e)))) + b (ix1 j)
  refine congrArg (fun t => t + b (ix1 j)) (Finset.sum_congr rfl fun e _ => ?_)
  rw [hP]

/-- The logistic function spelt as one over one plus the exponential of the negation. -/
theorem logistic_spelt (s : EReal) :
    (FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) s))))
      = Ideal.logistic s := by
  show Ideal.div (Ideal.ofBits .f32 0x3F800000#32) (Ideal.ofBits .f32 0x3F800000#32 + Ideal.exp (-s)) = _
  rw [one_f32]; rfl

/-- At the exact values the host's accumulating scatter is the exact sum. -/
theorem hostScatterAdd_ideal {s si u : Shape} {φ : FTy} {w : Nat} (d : ScatterDims s si u) (x : FVec Ideal s φ)
    (idx : IVec si w) (upd : FVec Ideal u φ) (i : s.Idx) :
    Host.scatterAdd d x idx upd i = Ideal.hostScatterAdd d x idx upd i := rfl

/-- THE DECODING FROM ITS PIECES. If `prod` is the entrywise product of the rows of `z` taken at the two columns, and
    `out` the logistic function of each row's sum, then `out` is the decoding of `z`. -/
theorem decode_of_pieces
    (gd : GatherDims ⟨2, ![NN, 16]⟩ ⟨2, ![EE, 1]⟩ ⟨2, ![EE, 16]⟩)
    (hoff : gd.offsetDims = [1]) (hcoll : gd.collapsedSliceDims = [0]) (hob : gd.operandBatchingDims = [])
    (hsim : gd.startIndexMap = [0]) (hivd : gd.indexVectorDim = 1) (hss : gd.sliceSizes = ![1, 16])
    (z : (⟨2, ![NN, 16]⟩ : Shape).Idx → EReal) (srcC dstC : IVec ⟨2, ![EE, 1]⟩ 32)
    (prod : (⟨2, ![EE, 16]⟩ : Shape).Idx → EReal)
    (hprod : ∀ (e : Fin EE) (k : Fin 16), prod (ix2 e k)
      = Host.gather gd z srcC (ix2 e k) * Host.gather gd z dstC (ix2 e k))
    (out : (⟨1, ![EE]⟩ : Shape).Idx → EReal)
    (hout : ∀ e : Fin EE, out (ix1 e) = Ideal.logistic (∑ k : Fin 16, prod (ix2 e k))) :
    out = decode z srcC dstC := by
  funext i
  obtain ⟨e, rfl⟩ : ∃ e : Fin EE, i = ix1 e := ⟨i 0, eq_ix1 i⟩
  rw [hout]
  show _ = Ideal.logistic (∑ k : Fin 16, z (ix2 (node srcC e) k) * z (ix2 (node dstC e) k))
  refine congrArg Ideal.logistic (Finset.sum_congr rfl fun k _ => ?_)
  rw [hprod, gather_rows gd hoff hcoll hob hsim hivd hss z srcC e k hNN,
    gather_rows gd hoff hcoll hob hsim hivd hss z dstC e k hNN]

/-! ## The columns and the factors the second layer computes again -/

theorem v37_eq (x1 : (⟨S2x3200000, .i32⟩ : BufTy).Contents (Elt Ideal)) : val_main_v37 (F := Ideal) x1 = val_main_v20 x1 := rfl
theorem v43_eq (x1 : (⟨S2x3200000, .i32⟩ : BufTy).Contents (Elt Ideal)) : val_main_v43 (F := Ideal) x1 = val_main_v9 x1 := rfl
theorem v50_eq (x1 : (⟨S2x3200000, .i32⟩ : BufTy).Contents (Elt Ideal)) : val_main_v50 (F := Ideal) x1 = val_main_v5 x1 := rfl
theorem v51_eq (x1 : (⟨S2x3200000, .i32⟩ : BufTy).Contents (Elt Ideal)) : val_main_v51 (F := Ideal) x1 = val_main_v6 x1 := rfl
theorem v54_eq (x1 : (⟨S2x3200000, .i32⟩ : BufTy).Contents (Elt Ideal)) : val_main_v54 (F := Ideal) x1 = val_main_v9 x1 := rfl
theorem v88_eq (x1 : (⟨S2x3200000, .i32⟩ : BufTy).Contents (Elt Ideal)) : val_main_v88 (F := Ideal) x1 = val_main_v9 x1 := rfl
theorem v65_eq (x1 : (⟨S2x3200000, .i32⟩ : BufTy).Contents (Elt Ideal)) : val_main_v65 (F := Ideal) x1 = val_main_v20 x1 := rfl
theorem v82_eq (x1 : (⟨S2x3200000, .i32⟩ : BufTy).Contents (Elt Ideal)) : val_main_v82 (F := Ideal) x1 = val_main_v20 x1 := rfl
theorem v72_eq (x1 : (⟨S2x3200000, .i32⟩ : BufTy).Contents (Elt Ideal)) : val_main_v72 (F := Ideal) x1 = val_main_v27 x1 := rfl
theorem v59_eq (x1 : (⟨S2x3200000, .i32⟩ : BufTy).Contents (Elt Ideal)) : val_main_v59 (F := Ideal) x1 = val_main_v14 x1 := rfl

/-! ## The first layer -/

/-- The product of the features with the transposed first weights, entry by entry. -/
theorem lin1 (x0 : (⟨S100000x64, .f32⟩ : BufTy).Contents (Elt Ideal)) (x2 : (⟨S32x64, .f32⟩ : BufTy).Contents (Elt Ideal)) (v : Fin NN) (j : Fin 32) :
    val_main_v31 (F := Ideal) x0 x2 (ix2 v j) = lin x0 (val_main_v30 x2) v j := by
  rw [val_main_v31_apply]
  unfold lin
  refine Finset.sum_congr rfl fun k _ => ?_
  have hl : lidx_main_v31 (ix2 v j) k = ix2 v k := by
    funext a; match a with | ⟨0, _⟩ => rfl | ⟨1, _⟩ => rfl
  have hr : ridx_main_v31 (ix2 v j) k = ix2 k j := by
    funext a; match a with | ⟨0, _⟩ => rfl | ⟨1, _⟩ => rfl
  rw [hl, hr]

/-- The table the first layer sums into is zero. -/
theorem zero42 (i : S100000x32.Idx) : val_main_v42 (F := Ideal) i = 0 := by
  rw [val_main_v42_apply, val_main_cst_8_apply, Ideal.ofBits_def]
  exact Ideal.ofBits_zero_f32

/-- A row the first layer sums: the product's row at the source, times the two factors. -/
theorem upd41 (x0 : (⟨S100000x64, .f32⟩ : BufTy).Contents (Elt Ideal)) (x1 : (⟨S2x3200000, .i32⟩ : BufTy).Contents (Elt Ideal)) (x2 : (⟨S32x64, .f32⟩ : BufTy).Contents (Elt Ideal)) (e : Fin MM) (j : Fin 32) :
    val_main_v41 (F := Ideal) x0 x1 x2 (ix2 e j)
      = Host.gather gather_S100000x32_S3300000x1_S3300000x32_1_0_n_n_0_1_132 (val_main_v31 x0 x2) (val_main_v20 x1) (ix2 e j)
        * (Host.gather gather_S100000_S3300000x1_S3300000_n_0_n_n_0_1_1 (val_main_v14 x1) (val_main_v20 x1) (ix1 e)
          * Host.gather gather_S100000_S3300000x1_S3300000_n_0_n_n_0_1_1 (val_main_v14 x1) (val_main_v27 x1) (ix1 e)) := by
  have hi : idx_main_v39 (idx_main_v40 (ix2 e j)) = ix1 e := by
    funext a; match a with | ⟨0, _⟩ => rfl
  rw [val_main_v41_apply, val_main_v40_apply, val_main_v39_apply, val_main_v29_apply, hi, Ideal.mulf_def, Ideal.mulf_def]
  unfold val_main_v38 val_main_v21 val_main_v28
  rw [v37_eq]

/-- The first layer's result: the sum of the rows plus the bias. -/
theorem out47 (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (v : Fin NN) (j : Fin 32) :
    val_main_v47 (F := Ideal) x0 x1 x2 x3 (ix2 v j)
      = Ideal.hostScatterAdd scatter_S100000x32_S3300000x1_S3300000x32_1_0_0_1 (val_main_v42 (F := Ideal)) (val_main_v9 x1)
          (val_main_v41 x0 x1 x2) (ix2 v j) + x3 (ix1 j) := by
  have hi : idx_main_v45 (idx_main_v46 (ix2 v j)) = ix1 j := by
    funext a; match a with | ⟨0, _⟩ => rfl
  rw [val_main_v47_apply, val_main_v46_apply, val_main_v45_apply, hi]
  refine congrArg (fun t => t + x3 (ix1 j)) ?_
  unfold val_main_v44
  rw [hostScatterAdd_ideal, v43_eq]

theorem layer1_value (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) :
    val_main_v47 (F := Ideal) x0 x1 x2 x3
      = layerR x0 (val_main_v30 x2) x3 (val_main_v20 x1) (val_main_v9 x1) (val_main_v27 x1) (val_main_v14 x1) :=
  layerR_of_pieces gather_S100000x32_S3300000x1_S3300000x32_1_0_n_n_0_1_132 rfl rfl rfl rfl rfl rfl
    gather_S100000_S3300000x1_S3300000_n_0_n_n_0_1_1 rfl rfl rfl rfl
    scatter_S100000x32_S3300000x1_S3300000x32_1_0_0_1 rfl rfl rfl rfl
    x0 (val_main_v30 x2) x3 (val_main_v20 x1) (val_main_v9 x1) (val_main_v27 x1) (val_main_v14 x1)
    (val_main_v31 x0 x2) (lin1 x0 x2) (val_main_v42 (F := Ideal)) zero42 (val_main_v41 x0 x1 x2) (upd41 x0 x1 x2)
    (val_main_v47 x0 x1 x2 x3) (out47 x0 x1 x2 x3)

/-! ## The positive part -/

theorem relu_value (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) :
    val_main_v48 (F := Ideal) x0 x1 x2 x3 = relu (val_main_v47 x0 x1 x2 x3) := by
  funext i
  rw [val_main_v48_apply, val_main_call1_v0_apply, val_main_call1_cst_apply, Ideal.ofBits_def, Ideal.maximumf_def,
    Ideal.ofBits_zero_f32]
  rfl

/-! ## The second layer -/

/-- The product of the first layer's positive part with the transposed second weights, entry by entry. -/
theorem lin2 (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (v : Fin NN) (j : Fin 16) :
    val_main_v76 (F := Ideal) x0 x1 x2 x3 x4 (ix2 v j) = lin (val_main_v48 x0 x1 x2 x3) (val_main_v75 x4) v j := by
  rw [val_main_v76_apply]
  unfold lin
  refine Finset.sum_congr rfl fun k _ => ?_
  have hl : lidx_main_v76 (ix2 v j) k = ix2 v k := by
    funext a; match a with | ⟨0, _⟩ => rfl | ⟨1, _⟩ => rfl
  have hr : ridx_main_v76 (ix2 v j) k = ix2 k j := by
    funext a; match a with | ⟨0, _⟩ => rfl | ⟨1, _⟩ => rfl
  rw [hl, hr]

/-- The table the second layer sums into is zero. -/
theorem zero87 (i : S100000x16.Idx) : val_main_v87 (F := Ideal) i = 0 := by
  rw [val_main_v87_apply, val_main_cst_19_apply, Ideal.ofBits_def]
  exact Ideal.ofBits_zero_f32

/-- A row the second layer sums: the product's row at the source, times the two factors. -/
theorem upd86 (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (e : Fin MM) (j : Fin 16) :
    val_main_v86 (F := Ideal) x0 x1 x2 x3 x4 (ix2 e j)
      = Host.gather gather_S100000x16_S3300000x1_S3300000x16_1_0_n_n_0_1_116 (val_main_v76 x0 x1 x2 x3 x4) (val_main_v20 x1)
          (ix2 e j)
        * (Host.gather gather_S100000_S3300000x1_S3300000_n_0_n_n_0_1_1 (val_main_v14 x1) (val_main_v20 x1) (ix1 e)
          * Host.gather gather_S100000_S3300000x1_S3300000_n_0_n_n_0_1_1 (val_main_v14 x1) (val_main_v27 x1) (ix1 e)) := by
  have hi : idx_main_v84 (idx_main_v85 (ix2 e j)) = ix1 e := by
    funext a; match a with | ⟨0, _⟩ => rfl
  rw [val_main_v86_apply, val_main_v85_apply, val_main_v84_apply, val_main_v74_apply, hi, Ideal.mulf_def, Ideal.mulf_def]
  unfold val_main_v83 val_main_v66 val_main_v73
  rw [v82_eq, v65_eq, v72_eq, v59_eq]

/-- The second layer's result: the sum of the rows plus the bias. -/
theorem out92 (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (x5 : (⟨S16, .f32⟩ : BufTy).Contents (Elt Ideal)) (v : Fin NN) (j : Fin 16) :
    val_main_v92 (F := Ideal) x0 x1 x2 x3 x4 x5 (ix2 v j)
      = Ideal.hostScatterAdd scatter_S100000x16_S3300000x1_S3300000x16_1_0_0_1 (val_main_v87 (F := Ideal)) (val_main_v9 x1)
          (val_main_v86 x0 x1 x2 x3 x4) (ix2 v j) + x5 (ix1 j) := by
  have hi : idx_main_v90 (idx_main_v91 (ix2 v j)) = ix1 j := by
    funext a; match a with | ⟨0, _⟩ => rfl
  rw [val_main_v92_apply, val_main_v91_apply, val_main_v90_apply, hi]
  refine congrArg (fun t => t + x5 (ix1 j)) ?_
  unfold val_main_v89
  rw [hostScatterAdd_ideal, v88_eq]

theorem layer2_value (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (x5 : (⟨S16, .f32⟩ : BufTy).Contents (Elt Ideal)) :
    val_main_v92 (F := Ideal) x0 x1 x2 x3 x4 x5
      = layerR (val_main_v48 x0 x1 x2 x3) (val_main_v75 x4) x5 (val_main_v20 x1) (val_main_v9 x1) (val_main_v27 x1)
          (val_main_v14 x1) :=
  layerR_of_pieces gather_S100000x16_S3300000x1_S3300000x16_1_0_n_n_0_1_116 rfl rfl rfl rfl rfl rfl
    gather_S100000_S3300000x1_S3300000_n_0_n_n_0_1_1 rfl rfl rfl rfl
    scatter_S100000x16_S3300000x1_S3300000x16_1_0_0_1 rfl rfl rfl rfl
    (val_main_v48 x0 x1 x2 x3) (val_main_v75 x4) x5 (val_main_v20 x1) (val_main_v9 x1) (val_main_v27 x1) (val_main_v14 x1)
    (val_main_v76 x0 x1 x2 x3 x4) (lin2 x0 x1 x2 x3 x4) (val_main_v87 (F := Ideal)) zero87 (val_main_v86 x0 x1 x2 x3 x4)
    (upd86 x0 x1 x2 x3 x4) (val_main_v92 x0 x1 x2 x3 x4 x5) (out92 x0 x1 x2 x3 x4 x5)

/-! ## The decoding -/

/-- The entrywise product of the final rows taken at an edge's two endpoints. -/
theorem prod107 (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (x5 : (⟨S16, .f32⟩ : BufTy).Contents (Elt Ideal)) (e : Fin EE) (k : Fin 16) :
    val_main_v107 (F := Ideal) x0 x1 x2 x3 x4 x5 (ix2 e k)
      = Host.gather gather_S100000x16_S3200000x1_S3200000x16_1_0_n_n_0_1_116 (val_main_v92 x0 x1 x2 x3 x4 x5) (val_main_v98 x1)
          (ix2 e k)
        * Host.gather gather_S100000x16_S3200000x1_S3200000x16_1_0_n_n_0_1_116 (val_main_v92 x0 x1 x2 x3 x4 x5)
          (val_main_v105 x1) (ix2 e k) := by
  rw [val_main_v107_apply, Ideal.mulf_def]
  unfold val_main_v99 val_main_v106
  rfl

/-- The result at an edge: the logistic function of the sum of the products. -/
theorem out114 (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (x5 : (⟨S16, .f32⟩ : BufTy).Contents (Elt Ideal)) (e : Fin EE) :
    val_main_v114 (F := Ideal) x0 x1 x2 x3 x4 x5 (ix1 e)
      = Ideal.logistic (∑ k : Fin 16, val_main_v107 x0 x1 x2 x3 x4 x5 (ix2 e k)) := by
  have hi : ∀ k : Fin 16, idx_main_v108 (ix1 e) k = ix2 e k := fun k => by
    funext a; match a with | ⟨0, _⟩ => rfl | ⟨1, _⟩ => rfl
  rw [val_main_v114_apply, val_main_v113_apply, val_main_cst_26_apply, val_main_v112_apply, val_main_v111_apply,
    val_main_cst_25_apply, val_main_v110_apply, val_main_v109_apply, logistic_spelt, val_main_v108_apply,
    val_main_cst_24_apply, Ideal.ofBits_def, Ideal.ofBits_zero_f32, zero_add]
  refine congrArg Ideal.logistic (Finset.sum_congr rfl fun k _ => ?_)
  rw [hi]

theorem decode_value (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (x5 : (⟨S16, .f32⟩ : BufTy).Contents (Elt Ideal)) :
    val_main_v114 (F := Ideal) x0 x1 x2 x3 x4 x5
      = decode (val_main_v92 x0 x1 x2 x3 x4 x5) (val_main_v98 x1) (val_main_v105 x1) :=
  decode_of_pieces gather_S100000x16_S3200000x1_S3200000x16_1_0_n_n_0_1_116 rfl rfl rfl rfl rfl rfl
    (val_main_v92 x0 x1 x2 x3 x4 x5) (val_main_v98 x1) (val_main_v105 x1) (val_main_v107 x0 x1 x2 x3 x4 x5)
    (prod107 x0 x1 x2 x3 x4 x5) (val_main_v114 x0 x1 x2 x3 x4 x5) (out114 x0 x1 x2 x3 x4 x5)

/-! ## The whole reference -/

/-- The reference's result is two layers with both factors inside the sums, the positive part between them, and the
    decoding. -/
theorem ref_value (x0 : (⟨S100000x64, .f32⟩ : BufTy).Contents (Elt Ideal)) (x1 : (⟨S2x3200000, .i32⟩ : BufTy).Contents (Elt Ideal)) (x2 : (⟨S32x64, .f32⟩ : BufTy).Contents (Elt Ideal)) (x3 : (⟨S32, .f32⟩ : BufTy).Contents (Elt Ideal)) (x4 : (⟨S16x32, .f32⟩ : BufTy).Contents (Elt Ideal)) (x5 : (⟨S16, .f32⟩ : BufTy).Contents (Elt Ideal)) :
    val_main_v114 (F := Ideal) x0 x1 x2 x3 x4 x5
      = outR x0 (val_main_v30 x2) x3 (val_main_v75 x4) x5 (val_main_v20 x1) (val_main_v9 x1) (val_main_v27 x1)
          (val_main_v14 x1) (val_main_v98 x1) (val_main_v105 x1) := by
  unfold outR
  rw [decode_value, layer2_value, relu_value, layer1_value]

end Cert.ReferenceIdeal.Gcn

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.RegionValue.lean ====
/-
  THE THREE KERNEL REGIONS' WHOLE-ARRAY VALUES, over the extended reals, at any contents `V` of the arrays when a region
  is entered. Regions 0 and 1 each end with their result array holding the product of a feature array [100000 × K] with
  a weight array [K × D], every row scaled by its node's factor (K, D = 64, 32 and 32, 16): the grid's ten points each
  write the rows 10000 t … 10000 t + 9999, computed from the same rows of the features and of the factors and from the
  whole weight array. Region 2 ends with its result holding, per edge, the logistic function of the inner product of the
  edge's columns of two [16 × 3200000] arrays: the grid's fifty points each write the columns 64000 t … 64000 t + 63999.
  Per region: the stored block read at an index (a sum over the contracted or reduced axis); what a point writes back as
  the block, at that point, of ONE function of the whole arrays; every index covered by the point its row (column)
  number divided by the block's extent names; hence the array.
-/
import proofs.«418788_j89043261981497_3_alg».proof.Proof.Gen.KernelIdeal.Frame
import proofs.«418788_j89043261981497_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Cert.Gcn Idealize.ShloMosaic Idealize.ShloMosaic.TcCoe Idealize.SL.Sem
open Idealize.ShloMosaic.ValueIdx
open Idealize.ShloMosaic.Pipeline (Dat)
open scoped BigOperators

/-! # Shared small facts -/

/-- The zero offsets of a whole-block access are the zero function. -/
theorem hz : (![0, 0] : Fin 2 → Nat) = fun _ => 0 := funext fun a => by fin_cases a <;> rfl

/-- The logistic function of a vector, read at an index. -/
theorem logistic_at {s : Shape} {φ : FTy} (x : FVec Ideal s φ) (i : s.Idx) : logistic x i = Ideal.logistic (x i) := rfl

/-- A column of per-row factors spread over the columns: at (p, c) it reads the factor of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! # REGION 2: the decoder -/

/-- The index above lane `q` whose coordinate on the summed axis is `k`. -/
theorem lane_lift (q : Fin 64000) (k : Fin 16) :
    reduces_S16x64000_S64000.lift (ix1 q) k = ix2 k q :=
  funext fun a => Fin.ext (by
    match a with
    | ⟨0, _⟩ => rfl
    | ⟨1, _⟩ => rfl)

/-- The decoder's block at an index: the logistic function of the sum over the 16 rows of the products. -/
theorem decode_block_apply (zs zd : FVec Ideal S16x64000 .f32) (p : Fin 1) (q : Fin 64000) :
    k2_pay1 (F := Ideal) zs zd (ix2 p q) = Ideal.logistic (∑ k : Fin 16, zs (ix2 k q) * zd (ix2 k q)) := by
  unfold k2_pay1
  dsimp only
  refine (logistic_at _ _).trans ?_
  refine congrArg Ideal.logistic ?_
  refine (shapeCast_a_1a_apply _ shapeCasts_S64000_S1x64000 p q).trans ?_
  refine (Ideal.multiReduction_add_single _ _ reduces_S16x64000_S64000 _ _ (ix1 q)).trans ?_
  refine Finset.sum_congr rfl fun k _ => ?_
  rw [shapeCast_self, shapeCast_self]
  exact congrArg (fun j => zs j * zd j) (lane_lift q k)

/-- Per edge, the logistic function of the inner product of the edge's two columns. -/
abbrev decodeAll (zs zd : S16x3200000.Idx → EReal) : S1x3200000.Idx → EReal :=
  fun i => Ideal.logistic (∑ k : Fin 16, zs (ix2 k (i 1 : Fin EE)) * zd (ix2 k (i 1 : Fin EE)))

/-- A block of the decoder's result at an index, from the two blocks it reads: where each block's column is the
    array's column of the same edge, the block's entry is the array's. -/
theorem decode_point (zs zd : S16x3200000.Idx → EReal) (xs xd : FVec Ideal S16x64000 .f32) (j : S1x64000.Idx)
    (i : S1x3200000.Idx)
    (hs : ∀ k : Fin 16, xs (ix2 k (j 1 : Fin 64000)) = zs (ix2 k (i 1 : Fin EE)))
    (hd : ∀ k : Fin 16, xd (ix2 k (j 1 : Fin 64000)) = zd (ix2 k (i 1 : Fin EE))) :
    k2_pay1 (F := Ideal) xs xd j = decodeAll zs zd i := by
  obtain ⟨p, q, rfl⟩ : ∃ (p : Fin 1) (q : Fin 64000), j = ix2 p q := ⟨j 0, j 1, eq_ix2 j⟩
  refine (decode_block_apply xs xd p q).trans ?_
  exact congrArg Ideal.logistic (Finset.sum_congr rfl fun k _ => congrArg₂ (· * ·) (hs k) (hd k))

/-- The printed index maps, decided over the 50 grid points: every window's block index is (0, the point). -/
theorem decode_idx_facts : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

section Region2
variable (V : (c : Dev nD) → (b : Ref sig .tc) → Buf (Elt Ideal) ((c : Thread nD τ).loc b))

/-- What point `t` writes back is block `t` of the decoding of the two arrays the region finds. -/
theorem decode_flushed_eq (c : Dev nD) (t : Fin cfg2.N) :
    (dat2 (F := Ideal) V c).flushed 2 t
      = ((cfg2.win 2).blk t).view.read (Elt Ideal) (decodeAll (V c main_v52) (V c main_v53)) := by
  show (cfg2.win 2).cut (grid2.coords t) ((dat2 V c).after 2 t) = _
  rw [after2_2]
  unfold out2_2
  rw [View.canon_unit_zero hz]
  simp only [View.ld_unit_zero (S := S16x64000) hz]
  obtain ⟨e0, e1, e2, e3, e4, e5⟩ := decode_idx_facts t
  funext j
  refine decode_point (V c main_v52) (V c main_v53) (iblk2 V c 0 t) (iblk2 V c 1 t) j
    (((cfg2.win 2).blk t).view.emb j) (fun k => ?_) (fun k => ?_)
  · show V c main_v52 (((cfg2.win 0).blk t).view.emb (ix2 k (j 1))) = V c main_v52 (ix2 k ((((cfg2.win 2).blk t).view.emb j) 1))
    refine congrArg (V c main_v52) (funext fun a => Fin.ext ?_)
    match a with
    | ⟨0, _⟩ => show win2_0.index t (0 : Fin 2) * 16 + 1 * k.val = k.val; omega
    | ⟨1, _⟩ => show win2_0.index t (1 : Fin 2) * 64000 + 1 * (j 1).val = win2_2.index t (1 : Fin 2) * 64000 + 1 * (j 1).val; omega
  · show V c main_v53 (((cfg2.win 1).blk t).view.emb (ix2 k (j 1))) = V c main_v53 (ix2 k ((((cfg2.win 2).blk t).view.emb j) 1))
    refine congrArg (V c main_v53) (funext fun a => Fin.ext ?_)
    match a with
    | ⟨0, _⟩ => show win2_1.index t (0 : Fin 2) * 16 + 1 * k.val = k.val; omega
    | ⟨1, _⟩ => show win2_1.index t (1 : Fin 2) * 64000 + 1 * (j 1).val = win2_2.index t (1 : Fin 2) * 64000 + 1 * (j 1).val; omega

end Region2

/-- An index of the result is in point `t`'s block iff each coordinate is in the block's range on its axis. -/
theorem decode_mem_blk (t : Fin cfg2.N) (i : S1x3200000.Idx) :
    i ∈ ((cfg2.win 2).blk t).view.set ↔ ∀ a : Fin 2, win2_2.index t a * S1x64000.size a ≤ (i a).val
      ∧ (i a).val < win2_2.index t a * S1x64000.size a + S1x64000.size a := by
  show i ∈ ((View.whole main_v54).slice (win2_2.rect t)).set ↔ _
  rw [View.set_slice_whole, Rect.mem_set_unit]
  exact Iff.rfl

/-- Every edge is in the block of the point its number divided by 64000 names. -/
theorem decode_cover (i : S1x3200000.Idx) :
    ∃ t : Fin cfg2.N, (cfg2.win 2).flush t = true ∧ i ∈ ((cfg2.win 2).blk t).view.set := by
  have hi0 : (i 0).val < 1 := (i 0).isLt
  have hi1 : (i 1).val < 3200000 := (i 1).isLt
  have hN : cfg2.N = 50 := N_2
  obtain ⟨t, ht⟩ : ∃ t : Fin cfg2.N, t.val = (i 1).val / 64000 := ⟨⟨(i 1).val / 64000, by omega⟩, rfl⟩
  obtain ⟨e0, e1, e2, e3, e4, e5⟩ := decode_idx_facts t
  refine ⟨t, flush2_2 t, ?_⟩
  rw [decode_mem_blk]
  intro a
  match a with
  | ⟨0, _⟩ =>
    show win2_2.index t (0 : Fin 2) * 1 ≤ (i 0).val ∧ (i 0).val < win2_2.index t (0 : Fin 2) * 1 + 1
    omega
  | ⟨1, _⟩ =>
    show win2_2.index t (1 : Fin 2) * 64000 ≤ (i 1).val ∧ (i 1).val < win2_2.index t (1 : Fin 2) * 64000 + 64000
    omega

section Region2Value
variable (V : (c : Dev nD) → (b : Ref sig .tc) → Buf (Elt Ideal) ((c : Thread nD τ).loc b))

/-- REGION 2: the result array ends holding, per edge, the logistic function of the inner product of the edge's columns
    of the two arrays the region finds. -/
theorem region2_value (c : Dev nD) :
    (dat2 (F := Ideal) V c).arrAt 2 cfg2.N
      = decodeAll (V c main_v52) (V c main_v53) :=
  (dat2 (F := Ideal) V c).arrAt_eq_of_cover 2 (decodeAll (V c main_v52) (V c main_v53))
    (fun t _ => decode_flushed_eq V c t) decode_cover

end Region2Value

/-! # REGION 0: the first layer's scaled product -/

/-! ## Region 0: the product's operand indices, axis by axis -/

theorem lhs0_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs0_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs0_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs0_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The block's product with the zero accumulator at (p, q): the sum over the 64 inner coordinates. -/
theorem matmul0_apply (x : FVec Ideal S10000x64 .bf16) (w : FVec Ideal S64x32 .bf16) (p : Fin 10000) (q : Fin 32) :
    matmul dot_S10000x64_S64x32_S10000x32_1_0_0_1_n_n none x w (constant (F := Ideal) S10000x32 .f32 0x00000000#32) (ix2 p q)
      = ∑ k : Fin 64, x (ix2 p k) * w (ix2 k q) := by
  refine (Ideal.matmul_constant_zero_apply dot_S10000x64_S64x32_S10000x32_1_0_0_1_n_n none x w (ix2 p q)).trans ?_
  rw [← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs0_0 _ _
    | ⟨1, _⟩ => exact (lhs0_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-- The block the region stores, at (p, q): the product's entry times the factor of row p. -/
theorem scaled_block0_apply (x : FVec Ideal S10000x64 .f32) (w : FVec Ideal S64x32 .f32) (d : FVec Ideal S10000x1 .f32)
    (p : Fin 10000) (q : Fin 32) :
    k0_pay1 (F := Ideal) x w d (ix2 p q) = (∑ k : Fin 64, x (ix2 p k) * w (ix2 k q)) * d (ix2 p (0 : Fin 1)) := by
  unfold k0_pay1
  try dsimp only
  rw [shapeCast_self, shapeCast_self]
  refine (mulf_apply _ _ _).trans ?_
  refine congrArg₂ (· * ·) ?_ ?_
  · exact matmul0_apply _ _ p q
  · exact broadcastTo_a1_ab_apply d broadcasts_S10000x1_S10000x32 p q

/-- A block of region 0's result at an index, from the three blocks it reads: where the feature block's row is the
    array's row of the same node, the weight block is the weight array, and the factor block's row is the node's factor,
    the block's entry is the scaled product's. -/
theorem scaled_point0 (h : S100000x64.Idx → EReal) (wt : S64x32.Idx → EReal) (dv : S100000x1.Idx → EReal)
    (x : FVec Ideal S10000x64 .f32) (w : FVec Ideal S64x32 .f32) (d : FVec Ideal S10000x1 .f32)
    (j : S10000x32.Idx) (i : S100000x32.Idx)
    (hx : ∀ k : Fin 64, x (ix2 (j 0 : Fin 10000) k) = h (ix2 (i 0 : Fin NN) k))
    (hw : ∀ k : Fin 64, w (ix2 k (j 1 : Fin 32)) = wt (ix2 k (i 1 : Fin 32)))
    (hd : d (ix2 (j 0 : Fin 10000) (0 : Fin 1)) = dv (ix2 (i 0 : Fin NN) (0 : Fin 1))) :
    k0_pay1 (F := Ideal) x w d j = scaled (K := 64) (D := 32) h wt dv i := by
  obtain ⟨p, q, rfl⟩ : ∃ (p : Fin 10000) (q : Fin 32), j = ix2 p q := ⟨j 0, j 1, eq_ix2 j⟩
  refine (scaled_block0_apply x w d p q).trans ?_
  show _ = (∑ k : Fin 64, h (ix2 (i 0 : Fin NN) k) * wt (ix2 k (i 1 : Fin 32))) * dv (ix2 (i 0 : Fin NN) (0 : Fin 1))
  exact congrArg₂ (· * ·) (Finset.sum_congr rfl fun k _ => congrArg₂ (· * ·) (hx k) (hw k)) hd

/-- The printed index maps, decided over the 10 grid points: the feature, factor and result windows' block index is
    (the point, 0), the weight window's (0, 0). -/
theorem scaled0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Region0
variable (V : (c : Dev nD) → (b : Ref sig .tc) → Buf (Elt Ideal) ((c : Thread nD τ).loc b))

/-- What point `t` writes back is block `t` of the scaled product of the arrays the region finds. -/
theorem scaled0_flushed_eq (c : Dev nD) (t : Fin cfg0.N) :
    (dat0 (F := Ideal) V c).flushed 3 t
      = ((cfg0.win 3).blk t).view.read (Elt Ideal)
          (scaled (K := 64) (D := 32) (V c main_arg0) (V c main_v16) (V c main_v15)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x32) hz, View.ld_unit_zero (S := S10000x1) hz]
  obtain ⟨e0, e1, e2, e3, e4, e5, e6, e7⟩ := scaled0_idx_facts t
  funext j
  refine scaled_point0 (V c main_arg0) (V c main_v16) (V c main_v15) (iblk0 V c 0 t) (iblk0 V c 1 t) (iblk0 V c 2 t) j
    (((cfg0.win 3).blk t).view.emb j) (fun k => ?_) (fun k => ?_) ?_
  · show V c main_arg0 (((cfg0.win 0).blk t).view.emb (ix2 (j 0) k))
      = V c main_arg0 (ix2 ((((cfg0.win 3).blk t).view.emb j) 0) k)
    refine congrArg (V c main_arg0) (funext fun a => Fin.ext ?_)
    match a with
    | ⟨0, _⟩ =>
      show win0_0.index t (0 : Fin 2) * 10000 + 1 * (j 0).val = win0_3.index t (0 : Fin 2) * 10000 + 1 * (j 0).val
      omega
    | ⟨1, _⟩ => show win0_0.index t (1 : Fin 2) * 64 + 1 * k.val = k.val; omega
  · show V c main_v16 (((cfg0.win 1).blk t).view.emb (ix2 k (j 1)))
      = V c main_v16 (ix2 k ((((cfg0.win 3).blk t).view.emb j) 1))
    refine congrArg (V c main_v16) (funext fun a => Fin.ext ?_)
    match a with
    | ⟨0, _⟩ => show win0_1.index t (0 : Fin 2) * 64 + 1 * k.val = k.val; omega
    | ⟨1, _⟩ =>
      show win0_1.index t (1 : Fin 2) * 32 + 1 * (j 1).val = win0_3.index t (1 : Fin 2) * 32 + 1 * (j 1).val
      omega
  · show V c main_v15 (((cfg0.win 2).blk t).view.emb (ix2 (j 0) (0 : Fin 1)))
      = V c main_v15 (ix2 ((((cfg0.win 3).blk t).view.emb j) 0) (0 : Fin 1))
    refine congrArg (V c main_v15) (funext fun a => Fin.ext ?_)
    match a with
    | ⟨0, _⟩ =>
      show win0_2.index t (0 : Fin 2) * 10000 + 1 * (j 0).val = win0_3.index t (0 : Fin 2) * 10000 + 1 * (j 0).val
      omega
    | ⟨1, _⟩ => show win0_2.index t (1 : Fin 2) * 1 + 1 * 0 = 0; omega

end Region0

/-- An index of region 0's result is in point `t`'s block iff each coordinate is in the block's range on its axis. -/
theorem scaled0_mem_blk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v17).slice (win0_3.rect t)).set ↔ _
  rw [View.set_slice_whole, Rect.mem_set_unit]
  exact Iff.rfl

/-- Every node's row is in the block of the point its number divided by 10000 names. -/
theorem scaled0_cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by omega⟩, rfl⟩
  obtain ⟨e0, e1, e2, e3, e4, e5, e6, e7⟩ := scaled0_idx_facts t
  refine ⟨t, flush0_3 t, ?_⟩
  rw [scaled0_mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 32 ≤ (i 1).val ∧ (i 1).val < win0_3.index t (1 : Fin 2) * 32 + 32
    omega

section Region0Value
variable (V : (c : Dev nD) → (b : Ref sig .tc) → Buf (Elt Ideal) ((c : Thread nD τ).loc b))

/-- REGION 0: the result array ends holding the product of the feature array with the weight array, every row scaled
    by its node's factor. -/
theorem region0_value (c : Dev nD) :
    (dat0 (F := Ideal) V c).arrAt 3 cfg0.N
      = scaled (K := 64) (D := 32) (V c main_arg0) (V c main_v16) (V c main_v15) :=
  (dat0 (F := Ideal) V c).arrAt_eq_of_cover 3 (scaled (K := 64) (D := 32) (V c main_arg0) (V c main_v16) (V c main_v15))
    (fun t _ => scaled0_flushed_eq V c t) scaled0_cover

end Region0Value

/-! # REGION 1: the second layer's scaled product -/

/-! ## Region 1: the product's operand indices, axis by axis -/

theorem lhs1_0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs1_1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem rhs1_0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem rhs1_1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The block's product with the zero accumulator at (p, q): the sum over the 32 inner coordinates. -/
theorem matmul1_apply (x : FVec Ideal S10000x32 .bf16) (w : FVec Ideal S32x16 .bf16) (p : Fin 10000) (q : Fin 16) :
    matmul dot_S10000x32_S32x16_S10000x16_1_0_0_1_n_n none x w (constant (F := Ideal) S10000x16 .f32 0x00000000#32) (ix2 p q)
      = ∑ k : Fin 32, x (ix2 p k) * w (ix2 k q) := by
  refine (Ideal.matmul_constant_zero_apply dot_S10000x32_S32x16_S10000x16_1_0_0_1_n_n none x w (ix2 p q)).trans ?_
  rw [← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx (ix2 p q) ((contrEquiv1 dot_S10000x32_S32x16_S10000x16_1_0_0_1_n_n 32 rfl rfl).symm k) = ix2 p k := funext fun a => Fin.ext (by
    match a with
    | ⟨0, _⟩ => exact lhs1_0 _ _
    | ⟨1, _⟩ => exact (lhs1_1 _ _).trans hk)
  have er : dot_S10000x32_S32x16_S10000x16_1_0_0_1_n_n.rhsIdx (ix2 p q) ((contrEquiv1 dot_S10000x32_S32x16_S10000x16_1_0_0_1_n_n 32 rfl rfl).symm k) = ix2 k q := funext fun a => Fin.ext (by
    match a with
    | ⟨0, _⟩ => exact (rhs1_0 _ _).trans hk
    | ⟨1, _⟩ => exact rhs1_1 _ _)
  rw [el, er]

/-- The block the region stores, at (p, q): the product's entry times the factor of row p. -/
theorem scaled_block1_apply (x : FVec Ideal S10000x32 .f32) (w : FVec Ideal S32x16 .f32) (d : FVec Ideal S10000x1 .f32)
    (p : Fin 10000) (q : Fin 16) :
    k1_pay1 (F := Ideal) x w d (ix2 p q) = (∑ k : Fin 32, x (ix2 p k) * w (ix2 k q)) * d (ix2 p (0 : Fin 1)) := by
  unfold k1_pay1
  try dsimp only
  rw [shapeCast_self, shapeCast_self, shapeCast_self]
  refine (mulf_apply _ _ _).trans ?_
  refine congrArg₂ (· * ·) ?_ ?_
  · exact matmul1_apply _ _ p q
  · exact broadcastTo_a1_ab_apply d broadcasts_S10000x1_S10000x16 p q

/-- A block of region 1's result at an index, from the three blocks it reads: where the feature block's row is the
    array's row of the same node, the weight block is the weight array, and the factor block's row is the node's factor,
    the block's entry is the scaled product's. -/
theorem scaled_point1 (h : S100000x32.Idx → EReal) (wt : S32x16.Idx → EReal) (dv : S100000x1.Idx → EReal)
    (x : FVec Ideal S10000x32 .f32) (w : FVec Ideal S32x16 .f32) (d : FVec Ideal S10000x1 .f32)
    (j : S10000x16.Idx) (i : S100000x16.Idx)
    (hx : ∀ k : Fin 32, x (ix2 (j 0 : Fin 10000) k) = h (ix2 (i 0 : Fin NN) k))
    (hw : ∀ k : Fin 32, w (ix2 k (j 1 : Fin 16)) = wt (ix2 k (i 1 : Fin 16)))
    (hd : d (ix2 (j 0 : Fin 10000) (0 : Fin 1)) = dv (ix2 (i 0 : Fin NN) (0 : Fin 1))) :
    k1_pay1 (F := Ideal) x w d j = scaled (K := 32) (D := 16) h wt dv i := by
  obtain ⟨p, q, rfl⟩ : ∃ (p : Fin 10000) (q : Fin 16), j = ix2 p q := ⟨j 0, j 1, eq_ix2 j⟩
  refine (scaled_block1_apply x w d p q).trans ?_
  show _ = (∑ k : Fin 32, h (ix2 (i 0 : Fin NN) k) * wt (ix2 k (i 1 : Fin 16))) * dv (ix2 (i 0 : Fin NN) (0 : Fin 1))
  exact congrArg₂ (· * ·) (Finset.sum_congr rfl fun k _ => congrArg₂ (· * ·) (hx k) (hw k)) hd

/-- The printed index maps, decided over the 10 grid points: the feature, factor and result windows' block index is
    (the point, 0), the weight window's (0, 0). -/
theorem scaled1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section Region1
variable (V : (c : Dev nD) → (b : Ref sig .tc) → Buf (Elt Ideal) ((c : Thread nD τ).loc b))

/-- What point `t` writes back is block `t` of the scaled product of the arrays the region finds. -/
theorem scaled1_flushed_eq (c : Dev nD) (t : Fin cfg1.N) :
    (dat1 (F := Ideal) V c).flushed 3 t
      = ((cfg1.win 3).blk t).view.read (Elt Ideal)
          (scaled (K := 32) (D := 16) (V c main_v33) (V c main_v34) (V c main_v15)) := by
  show (cfg1.win 3).cut (grid1.coords t) ((dat1 V c).after 3 t) = _
  rw [after1_3]
  unfold out1_3
  rw [View.canon_unit_zero hz]
  simp only [View.ld_unit_zero (S := S10000x32) hz, View.ld_unit_zero (S := S32x16) hz, View.ld_unit_zero (S := S10000x1) hz]
  obtain ⟨e0, e1, e2, e3, e4, e5, e6, e7⟩ := scaled1_idx_facts t
  funext j
  refine scaled_point1 (V c main_v33) (V c main_v34) (V c main_v15) (iblk1 V c 0 t) (iblk1 V c 1 t) (iblk1 V c 2 t) j
    (((cfg1.win 3).blk t).view.emb j) (fun k => ?_) (fun k => ?_) ?_
  · show V c main_v33 (((cfg1.win 0).blk t).view.emb (ix2 (j 0) k))
      = V c main_v33 (ix2 ((((cfg1.win 3).blk t).view.emb j) 0) k)
    refine congrArg (V c main_v33) (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ => show win1_0.index t (1 : Fin 2) * 32 + 1 * k.val = k.val; omega
  · show V c main_v34 (((cfg1.win 1).blk t).view.emb (ix2 k (j 1)))
      = V c main_v34 (ix2 k ((((cfg1.win 3).blk t).view.emb j) 1))
    refine congrArg (V c main_v34) (funext fun a => Fin.ext ?_)
    match a with
    | ⟨0, _⟩ => show win1_1.index t (0 : Fin 2) * 32 + 1 * k.val = k.val; omega
    | ⟨1, _⟩ =>
      show win1_1.index t (1 : Fin 2) * 16 + 1 * (j 1).val = win1_3.index t (1 : Fin 2) * 16 + 1 * (j 1).val
      omega
  · show V c main_v15 (((cfg1.win 2).blk t).view.emb (ix2 (j 0) (0 : Fin 1)))
      = V c main_v15 (ix2 ((((cfg1.win 3).blk t).view.emb j) 0) (0 : Fin 1))
    refine congrArg (V c main_v15) (funext fun a => Fin.ext ?_)
    match a with
    | ⟨0, _⟩ =>
      show win1_2.index t (0 : Fin 2) * 10000 + 1 * (j 0).val = win1_3.index t (0 : Fin 2) * 10000 + 1 * (j 0).val
      omega
    | ⟨1, _⟩ => show win1_2.index t (1 : Fin 2) * 1 + 1 * 0 = 0; omega

end Region1

/-- An index of region 1's result is in point `t`'s block iff each coordinate is in the block's range on its axis. -/
theorem scaled1_mem_blk (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v35).slice (win1_3.rect t)).set ↔ _
  rw [View.set_slice_whole, Rect.mem_set_unit]
  exact Iff.rfl

/-- Every node's row is in the block of the point its number divided by 10000 names. -/
theorem scaled1_cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  obtain ⟨t, ht⟩ : ∃ t : Fin cfg1.N, t.val = (i 0).val / 10000 := ⟨⟨(i 0).val / 10000, by omega⟩, rfl⟩
  obtain ⟨e0, e1, e2, e3, e4, e5, e6, e7⟩ := scaled1_idx_facts t
  refine ⟨t, flush1_3 t, ?_⟩
  rw [scaled1_mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 16 ≤ (i 1).val ∧ (i 1).val < win1_3.index t (1 : Fin 2) * 16 + 16
    omega

section Region1Value
variable (V : (c : Dev nD) → (b : Ref sig .tc) → Buf (Elt Ideal) ((c : Thread nD τ).loc b))

/-- REGION 1: the result array ends holding the product of the feature array with the weight array, every row scaled
    by its node's factor. -/
theorem region1_value (c : Dev nD) :
    (dat1 (F := Ideal) V c).arrAt 3 cfg1.N
      = scaled (K := 32) (D := 16) (V c main_v33) (V c main_v34) (V c main_v15) :=
  (dat1 (F := Ideal) V c).arrAt_eq_of_cover 3 (scaled (K := 32) (D := 16) (V c main_v33) (V c main_v34) (V c main_v15))
    (fun t _ => scaled1_flushed_eq V c t) scaled1_cover

end Region1Value

end Cert.KernelIdeal.Gcn

end
-- ==== Proof.KernelChain1.lean ====
/-
  THE KERNEL'S RUN FROM THE LAUNCH TO THE SECOND REGION'S ENTRY. The stretches of host operations before the first
  region build the index columns (the sources and the targets of the update rows: the edges followed by one self loop
  per node) and the degree factor by the same operations as the reference, so those buffers hold the reference's stage
  functions of the edge list. The first region leaves the features' product with the transposed weights, every row
  scaled by its node's factor. The stretch after it takes that table's rows at the wrapped source column, sums them into
  the rows the target column names, scales every sum by its node's factor and adds the bias: the first layer with the
  target's factor applied once per node, outside the sum (`layerK`). Its positive part and the second layer's
  transposed weights are what the second region is entered with.
-/
import proofs.«418788_j89043261981497_3_alg».proof.Proof.Gen.KernelIdeal.Frame
import proofs.«418788_j89043261981497_3_alg».proof.Proof.RefRead
import proofs.«418788_j89043261981497_3_alg».proof.Proof.Spec
import proofs.«418788_j89043261981497_3_alg».proof.Proof.LibGatherScatter
import proofs.«418788_j89043261981497_3_alg».proof.Proof.LibAfter
import proofs.«418788_j89043261981497_3_alg».proof.Proof.RegionValue

set_option maxHeartbeats 400000
set_option maxRecDepth 16384

open scoped BigOperators

noncomputable section

namespace Cert.KernelIdeal.Gcn

open Idealize.ShloMosaic Idealize.ShloMosaic.TcCoe Idealize.ShloMosaic.ValueIdx Idealize.ShloMosaic.RowOps
  Idealize.ShloMosaic.StableHlo.Predicate
open Cert.KernelIdeal Cert.KernelIdeal.Gen Cert.Gcn Cert.ReferenceIdeal.ReadP

/-! ## What a stretch does not write -/

/-- A buffer that no operation of `hostOps0` writes holds after the stretch what it held before. -/
theorem keep_hostOps0 (V : Valuation τ sig (Elt Ideal)) (r : Ref sig .tc)
    (hr : r ∉ [main_v0, main_v1, main_v2, main_v3, main_v4, main_v5, main_v6, main_cst, main_v7, main_cst_0, main_v8, main_v9, main_v10, main_cst_1, main_v11, main_v12, main_v13, main_cst_2]) :
    StableHlo.after hostOps0 V (Proc.devRef .tc r) = V (Proc.devRef .tc r) :=
  StableHlo.after_of_writes_sub (W := [main_v0, main_v1, main_v2, main_v3, main_v4, main_v5, main_v6, main_cst, main_v7, main_cst_0, main_v8, main_v9, main_v10, main_cst_1, main_v11, main_v12, main_v13, main_cst_2]) hostOps0 V (by
    simp only [hostOps0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

/-- A buffer that no operation of `hostOps0_1` writes holds after the stretch what it held before. -/
theorem keep_hostOps0_1 (V : Valuation τ sig (Elt Ideal)) (r : Ref sig .tc)
    (hr : r ∉ [main_call0_v0, main_call0_v1, main_v14]) :
    StableHlo.after hostOps0_1 V (Proc.devRef .tc r) = V (Proc.devRef .tc r) :=
  StableHlo.after_of_writes_sub (W := [main_call0_v0, main_call0_v1, main_v14]) hostOps0_1 V (by
    simp only [hostOps0_1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

/-- A buffer that no operation of `hostOps0_2` writes holds after the stretch what it held before. -/
theorem keep_hostOps0_2 (V : Valuation τ sig (Elt Ideal)) (r : Ref sig .tc)
    (hr : r ∉ [main_v15, main_v16]) :
    StableHlo.after hostOps0_2 V (Proc.devRef .tc r) = V (Proc.devRef .tc r) :=
  StableHlo.after_of_writes_sub (W := [main_v15, main_v16]) hostOps0_2 V (by
    simp only [hostOps0_2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

/-- A buffer that no operation of `hostOps1` writes holds after the stretch what it held before. -/
theorem keep_hostOps1 (V : Valuation τ sig (Elt Ideal)) (r : Ref sig .tc)
    (hr : r ∉ [main_c, main_v18, main_v19, main_c_3, main_v20, main_v21, main_v22, main_v23, main_v24, main_cst_4, main_v25, main_v26, main_v27, main_v28, main_v29, main_v30, main_v31, main_v32]) :
    StableHlo.after hostOps1 V (Proc.devRef .tc r) = V (Proc.devRef .tc r) :=
  StableHlo.after_of_writes_sub (W := [main_c, main_v18, main_v19, main_c_3, main_v20, main_v21, main_v22, main_v23, main_v24, main_cst_4, main_v25, main_v26, main_v27, main_v28, main_v29, main_v30, main_v31, main_v32]) hostOps1 V (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

/-- A buffer that no operation of `hostOps1_1` writes holds after the stretch what it held before. -/
theorem keep_hostOps1_1 (V : Valuation τ sig (Elt Ideal)) (r : Ref sig .tc)
    (hr : r ∉ [main_call1_cst, main_call1_v0, main_v33]) :
    StableHlo.after hostOps1_1 V (Proc.devRef .tc r) = V (Proc.devRef .tc r) :=
  StableHlo.after_of_writes_sub (W := [main_call1_cst, main_call1_v0, main_v33]) hostOps1_1 V (by
    simp only [hostOps1_1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

/-- A buffer that no operation of `hostOps1_2` writes holds after the stretch what it held before. -/
theorem keep_hostOps1_2 (V : Valuation τ sig (Elt Ideal)) (r : Ref sig .tc)
    (hr : r ∉ [main_v34]) :
    StableHlo.after hostOps1_2 V (Proc.devRef .tc r) = V (Proc.devRef .tc r) :=
  StableHlo.after_of_writes_sub (W := [main_v34]) hostOps1_2 V (by
    simp only [hostOps1_2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

/-! ## The first stretches: the index columns and the degree factor are the reference's -/

section Stretches
variable (V : Valuation τ sig (Elt Ideal))

theorem s0_v1 : StableHlo.after hostOps0 V (Proc.devRef .tc main_v1)
    = val_main_v1 (F := Ideal) (V (Proc.devRef .tc main_arg1)) := by
  after_results
  try rfl
theorem s0_v3 : StableHlo.after hostOps0 V (Proc.devRef .tc main_v3)
    = val_main_v3 (F := Ideal) (V (Proc.devRef .tc main_arg1)) := by
  after_results
  try rfl
theorem s0_v5 : StableHlo.after hostOps0 V (Proc.devRef .tc main_v5)
    = val_main_v5 (F := Ideal) (V (Proc.devRef .tc main_arg1)) := by
  after_results
  try rfl
theorem s0_v6 : StableHlo.after hostOps0 V (Proc.devRef .tc main_v6)
    = val_main_v6 (F := Ideal) (V (Proc.devRef .tc main_arg1)) := by
  after_results
  try rfl
theorem s0_v12 : StableHlo.after hostOps0 V (Proc.devRef .tc main_v12)
    = val_main_v12 (F := Ideal) (V (Proc.devRef .tc main_arg1)) := by
  after_results
  try rfl
theorem s0_v13 : StableHlo.after hostOps0 V (Proc.devRef .tc main_v13)
    = val_main_v13 (F := Ideal) (V (Proc.devRef .tc main_arg1)) := by
  after_results
  try rfl
theorem s0_cst2 : StableHlo.after hostOps0 V (Proc.devRef .tc main_cst_2) = val_main_cst_2 (F := Ideal) := by
  after_results
  try rfl

end Stretches

section Stretches2
variable (V : Valuation τ sig (Elt Ideal))

/-- The degree factor's stretch: the selection between the inverse square root and zero. -/
theorem s01_v14 : StableHlo.after hostOps0_1 V (Proc.devRef .tc main_v14)
    = select (V (Proc.devRef .tc main_v12)) (V (Proc.devRef .tc main_v13))
        (broadcastInDim S100000 ![] bcast_S_S100000 (id (V (Proc.devRef .tc main_cst_2)))) := by
  after_results
  try rfl

/-- The factor as an [N × 1] column. -/
theorem s02_v15 : StableHlo.after hostOps0_2 V (Proc.devRef .tc main_v15)
    = broadcastInDim S100000x1 ![0] bcast_S100000_S100000x1_0 (V (Proc.devRef .tc main_v14)) := by
  after_results
  try rfl

/-- The first layer's weights, transposed. -/
theorem s02_v16 : StableHlo.after hostOps0_2 V (Proc.devRef .tc main_v16)
    = val_main_v30 (F := Ideal) (V (Proc.devRef .tc main_arg2)) := by
  after_results
  try rfl

/-- The second layer's weights, transposed. -/
theorem s12_v34 : StableHlo.after hostOps1_2 V (Proc.devRef .tc main_v34)
    = val_main_v75 (F := Ideal) (V (Proc.devRef .tc main_arg4)) := by
  after_results
  try rfl

/-- The positive part's stretch: the maximum with a rectangle of zeros. -/
theorem s11_v33 : StableHlo.after hostOps1_1 V (Proc.devRef .tc main_v33)
    = maximumf (F := Ideal) (V (Proc.devRef .tc main_v32))
        (broadcastInDim S100000x32 ![] bcast_S_S100000x32 (constant (F := Ideal) S_ .f32 0x00000000#32)) := by
  after_results
  try rfl

/-- The first layer's stretch, as the operations' term of the buffers it reads. -/
theorem s1_v32 : StableHlo.after hostOps1 V (Proc.devRef .tc main_v32)
    = addf (F := Ideal)
        (mulf (Host.scatterAdd scatter_S100000x32_S3300000x1_S3300000x32_1_0_0_1
            (broadcastInDim S100000x32 ![] bcast_S_S100000x32 (constant (F := Ideal) S_ .f32 0x00000000#32))
            (broadcastInDim S3300000x1 ![0] bcast_S3300000_S3300000x1_0 (V (Proc.devRef .tc main_v6)))
            (Host.gather gather_S100000x32_S3300000x1_S3300000x32_1_0_n_n_0_1_132 (V (Proc.devRef .tc main_v17))
              (broadcastInDim S3300000x1 ![0] bcast_S3300000_S3300000x1_0
                (select (cmpi .slt (V (Proc.devRef .tc main_v5)) (broadcastInDim S3300000 ![] bcast_S_S3300000 (constantI S_ 32 0#32)))
                  (addi (V (Proc.devRef .tc main_v5)) (broadcastInDim S3300000 ![] bcast_S_S3300000 (constantI S_ 32 100000#32)))
                  (V (Proc.devRef .tc main_v5))))))
          (broadcastInDim S100000x32 ![0, 1] bcast_S100000x1_S100000x32_0_1 (V (Proc.devRef .tc main_v15))))
        (broadcastInDim S100000x32 ![0, 1] bcast_S1x32_S100000x32_0_1
          (broadcastInDim S1x32 ![1] bcast_S32_S1x32_1 (V (Proc.devRef .tc main_arg3)))) := by
  after_results_simp
  try rfl

end Stretches2

/-! ## Reading the operations of a layer's host stretch at an entry -/

/-- A scalar zero laid over a rectangle reads zero everywhere. -/
theorem bcast_zero_at {n D : Nat} (hz : (⟨0, ![]⟩ : Shape).BroadcastsInDim ⟨2, ![n, D]⟩ ![])
    (i : (⟨2, ![n, D]⟩ : Shape).Idx) :
    broadcastInDim ⟨2, ![n, D]⟩ ![] hz (constant (F := Ideal) ⟨0, ![]⟩ .f32 0x00000000#32) i = 0 := by
  rw [broadcastInDim_apply _ hz _ i ix0 (fun a => a.elim0), constant_apply, Ideal.ofBits_zero_f32]

/-- An [n × 1] column laid over an [n × D] rectangle reads, at (v, j), the column's row v. -/
theorem bcast_col_at {α : Type} {n D : Nat} (hc : (⟨2, ![n, 1]⟩ : Shape).BroadcastsInDim ⟨2, ![n, D]⟩ ![0, 1])
    (x : (⟨2, ![n, 1]⟩ : Shape).Idx → α) (v : Fin n) (j : Fin D) :
    broadcastInDim ⟨2, ![n, D]⟩ ![0, 1] hc x (ix2 v j) = x (ix2 v (0 : Fin 1)) := by
  refine broadcastInDim_apply _ hc x (ix2 v j) (ix2 v (0 : Fin 1)) fun a => ?_
  match a with
  | ⟨0, _⟩ =>
    show v.val = if n = 1 then 0 else v.val
    have := v.isLt
    split <;> omega
  | ⟨1, _⟩ =>
    show (0 : Nat) = if (1 : Nat) = 1 then 0 else j.val
    rw [if_pos rfl]

/-- A [D] vector laid as a [1 × D] row and then over an [n × D] rectangle reads, at (v, j), its entry j. -/
theorem bcast_row_at {α : Type} {n D : Nat} (hr1 : (⟨1, ![D]⟩ : Shape).BroadcastsInDim ⟨2, ![1, D]⟩ ![1])
    (hr2 : (⟨2, ![1, D]⟩ : Shape).BroadcastsInDim ⟨2, ![n, D]⟩ ![0, 1])
    (b : (⟨1, ![D]⟩ : Shape).Idx → α) (v : Fin n) (j : Fin D) :
    broadcastInDim ⟨2, ![n, D]⟩ ![0, 1] hr2 (broadcastInDim ⟨2, ![1, D]⟩ ![1] hr1 b) (ix2 v j) = b (ix1 j) := by
  rw [broadcastInDim_apply _ hr2 _ (ix2 v j) (ix2 (0 : Fin 1) j) (fun a => by
    match a with
    | ⟨0, _⟩ =>
      show (0 : Nat) = if (1 : Nat) = 1 then 0 else v.val
      rw [if_pos rfl]
    | ⟨1, _⟩ =>
      show j.val = if D = 1 then 0 else j.val
      have := j.isLt
      split <;> omega)]
  refine broadcastInDim_apply _ hr1 b (ix2 (0 : Fin 1) j) (ix1 j) fun a => ?_
  match a with
  | ⟨0, _⟩ =>
    show j.val = if D = 1 then 0 else j.val
    have := j.isLt
    split <;> omega

/-- A [n] vector laid as an [n × 1] column reads, at (v, 0), its entry v. -/
theorem bcast_vec_col_at {α : Type} {n : Nat} (h : (⟨1, ![n]⟩ : Shape).BroadcastsInDim ⟨2, ![n, 1]⟩ ![0])
    (x : (⟨1, ![n]⟩ : Shape).Idx → α) (v : Fin n) :
    broadcastInDim ⟨2, ![n, 1]⟩ ![0] h x (ix2 v (0 : Fin 1)) = x (ix1 v) := by
  refine broadcastInDim_apply _ h x (ix2 v (0 : Fin 1)) (ix1 v) fun a => ?_
  match a with
  | ⟨0, _⟩ =>
    show v.val = if n = 1 then 0 else v.val
    have := v.isLt
    split <;> omega

/-- At the exact instance the accumulating scatter is the exact sum. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The rows of a table taken at a source column and summed, from zero, into the rows a target column names: entry
    (v, j) is the sum over the update rows landing on v of the source's row of the table. -/
theorem take_sum_at {N M D : Nat} (hN : 0 < N)
    (gd : GatherDims ⟨2, ![N, D]⟩ ⟨2, ![M, 1]⟩ ⟨2, ![M, D]⟩)
    (hg1 : gd.offsetDims = [1]) (hg2 : gd.collapsedSliceDims = [0]) (hg3 : gd.operandBatchingDims = [])
    (hg4 : gd.startIndexMap = [0]) (hg5 : gd.indexVectorDim = 1) (hg6 : gd.sliceSizes = ![1, D])
    (sd : ScatterDims ⟨2, ![N, D]⟩ ⟨2, ![M, 1]⟩ ⟨2, ![M, D]⟩)
    (hs1 : sd.updateWindowDims = [1]) (hs2 : sd.insertedWindowDims = [0]) (hs3 : sd.scatterDimsToOperandDims = [0])
    (hs4 : sd.indexVectorDim = 1)
    (hz : (⟨0, ![]⟩ : Shape).BroadcastsInDim ⟨2, ![N, D]⟩ ![])
    (y : (⟨2, ![N, D]⟩ : Shape).Idx → EReal) (sI dI : IVec ⟨2, ![M, 1]⟩ 32) (v : Fin N) (j : Fin D) :
    Host.scatterAdd (F := Ideal) (φ := .f32) sd
        (broadcastInDim ⟨2, ![N, D]⟩ ![] hz (constant (F := Ideal) ⟨0, ![]⟩ .f32 0x00000000#32)) dI
        (Host.gather gd y sI) (ix2 v j)
      = ∑ e ∈ Finset.univ.filter (fun e : Fin M => lands dI e v.val), y (ix2 (clampRow N hN sI e) j) := by
  rw [scatterAdd_ideal, scatterAdd_rows sd hs1 hs2 hs3 hs4, bcast_zero_at, zero_add]
  refine Finset.sum_congr rfl fun e _ => ?_
  exact gather_rows gd hg1 hg2 hg3 hg4 hg5 hg6 y sI e j hN

/-- ONE LAYER'S HOST STRETCH AT AN ENTRY: the taken rows summed, the sums scaled by a per-node column, a bias row
    added. -/
theorem layer_host_gen {N M D : Nat} (hN : 0 < N)
    (gd : GatherDims ⟨2, ![N, D]⟩ ⟨2, ![M, 1]⟩ ⟨2, ![M, D]⟩)
    (hg1 : gd.offsetDims = [1]) (hg2 : gd.collapsedSliceDims = [0]) (hg3 : gd.operandBatchingDims = [])
    (hg4 : gd.startIndexMap = [0]) (hg5 : gd.indexVectorDim = 1) (hg6 : gd.sliceSizes = ![1, D])
    (sd : ScatterDims ⟨2, ![N, D]⟩ ⟨2, ![M, 1]⟩ ⟨2, ![M, D]⟩)
    (hs1 : sd.updateWindowDims = [1]) (hs2 : sd.insertedWindowDims = [0]) (hs3 : sd.scatterDimsToOperandDims = [0])
    (hs4 : sd.indexVectorDim = 1)
    (hz : (⟨0, ![]⟩ : Shape).BroadcastsInDim ⟨2, ![N, D]⟩ ![])
    (hc : (⟨2, ![N, 1]⟩ : Shape).BroadcastsInDim ⟨2, ![N, D]⟩ ![0, 1])
    (hr1 : (⟨1, ![D]⟩ : Shape).BroadcastsInDim ⟨2, ![1, D]⟩ ![1])
    (hr2 : (⟨2, ![1, D]⟩ : Shape).BroadcastsInDim ⟨2, ![N, D]⟩ ![0, 1])
    (y : (⟨2, ![N, D]⟩ : Shape).Idx → EReal) (sI dI : IVec ⟨2, ![M, 1]⟩ 32)
    (dv2 : (⟨2, ![N, 1]⟩ : Shape).Idx → EReal) (b : (⟨1, ![D]⟩ : Shape).Idx → EReal) (v : Fin N) (j : Fin D) :
    addf (F := Ideal) (φ := .f32)
        (mulf (Host.scatterAdd (F := Ideal) (φ := .f32) sd
            (broadcastInDim ⟨2, ![N, D]⟩ ![] hz (constant (F := Ideal) ⟨0, ![]⟩ .f32 0x00000000#32)) dI
            (Host.gather gd y sI)) (broadcastInDim ⟨2, ![N, D]⟩ ![0, 1] hc dv2))
        (broadcastInDim ⟨2, ![N, D]⟩ ![0, 1] hr2 (broadcastInDim ⟨2, ![1, D]⟩ ![1] hr1 b)) (ix2 v j)
      = (∑ e ∈ Finset.univ.filter (fun e : Fin M => lands dI e v.val), y (ix2 (clampRow N hN sI e) j))
          * dv2 (ix2 v (0 : Fin 1)) + b (ix1 j) := by
  rw [addf_apply, mulf_apply, bcast_col_at hc dv2 v j, bcast_row_at hr1 hr2 b v j,
    take_sum_at hN gd hg1 hg2 hg3 hg4 hg5 hg6 sd hs1 hs2 hs3 hs4 hz y sI dI v j]

/-! ## The vocabulary at an entry -/

theorem scaled_at {K D : Nat} (h : (⟨2, ![NN, K]⟩ : Shape).Idx → EReal) (wt : (⟨2, ![K, D]⟩ : Shape).Idx → EReal)
    (dv2 : (⟨2, ![NN, 1]⟩ : Shape).Idx → EReal) (v : Fin NN) (j : Fin D) :
    scaled h wt dv2 (ix2 v j) = lin h wt v j * dv2 (ix2 v (0 : Fin 1)) := rfl

theorem layerK_at {K D : Nat} (h : (⟨2, ![NN, K]⟩ : Shape).Idx → EReal) (wt : (⟨2, ![K, D]⟩ : Shape).Idx → EReal)
    (b : (⟨1, ![D]⟩ : Shape).Idx → EReal) (sI dI : IVec ⟨2, ![MM, 1]⟩ 32)
    (dv : (⟨1, ![NN]⟩ : Shape).Idx → EReal) (v : Fin NN) (j : Fin D) :
    layerK h wt b sI dI dv (ix2 v j)
      = (∑ e ∈ inc dI v, lin h wt (node sI e) j * dv (ix1 (node sI e))) * dv (ix1 v) + b (ix1 j) := rfl

/-- The maximum with a rectangle of zeros is the positive part. -/
theorem max_zero_eq_relu {n D : Nat} (hz : (⟨0, ![]⟩ : Shape).BroadcastsInDim ⟨2, ![n, D]⟩ ![])
    (x : (⟨2, ![n, D]⟩ : Shape).Idx → EReal) :
    maximumf (F := Ideal) (φ := .f32) x
        (broadcastInDim ⟨2, ![n, D]⟩ ![] hz (constant (F := Ideal) ⟨0, ![]⟩ .f32 0x00000000#32)) = relu x := by
  funext i
  rw [maximumf_apply, bcast_zero_at]
  rfl

/-- THE FIRST LAYER'S STRETCH AT AN ENTRY, from what the buffers it reads hold: the index columns the reference's, the
    table `y`, the factor column `dv2`, the bias `b`. -/
theorem s1_v32_at (V : Valuation τ sig (Elt Ideal))
    (ei : (⟨Cert.ReferenceIdeal.S2x3200000, .i32⟩ : BufTy).Contents (Elt Ideal))
    (y : (⟨2, ![NN, 32]⟩ : Shape).Idx → EReal) (dv2 : (⟨2, ![NN, 1]⟩ : Shape).Idx → EReal)
    (b : (⟨1, ![32]⟩ : Shape).Idx → EReal)
    (h5 : V (Proc.devRef .tc main_v5) = val_main_v5 (F := Ideal) ei)
    (h6 : V (Proc.devRef .tc main_v6) = val_main_v6 (F := Ideal) ei)
    (h17 : V (Proc.devRef .tc main_v17) = y) (h15 : V (Proc.devRef .tc main_v15) = dv2)
    (h3 : V (Proc.devRef .tc main_arg3) = b) (v : Fin NN) (j : Fin 32) :
    StableHlo.after hostOps1 V (Proc.devRef .tc main_v32) (ix2 v j)
      = (∑ e ∈ inc (val_main_v9 (F := Ideal) ei) v, y (ix2 (node (val_main_v20 (F := Ideal) ei) e) j))
          * dv2 (ix2 v (0 : Fin 1)) + b (ix1 j) := by
  rw [s1_v32 V, h5, h6, h17, h15, h3]
  have hd : broadcastInDim S3300000x1 ![0] bcast_S3300000_S3300000x1_0 (val_main_v6 (F := Ideal) ei)
      = val_main_v9 (F := Ideal) ei := rfl
  have hs : broadcastInDim S3300000x1 ![0] bcast_S3300000_S3300000x1_0
      (select (cmpi .slt (val_main_v5 (F := Ideal) ei) (broadcastInDim S3300000 ![] bcast_S_S3300000 (constantI S_ 32 0#32)))
        (addi (val_main_v5 (F := Ideal) ei) (broadcastInDim S3300000 ![] bcast_S_S3300000 (constantI S_ 32 100000#32)))
        (val_main_v5 (F := Ideal) ei))
      = val_main_v20 (F := Ideal) ei := rfl
  rw [hd, hs]
  unfold inc
  exact layer_host_gen hNN gather_S100000x32_S3300000x1_S3300000x32_1_0_n_n_0_1_132 rfl rfl rfl rfl rfl rfl
    scatter_S100000x32_S3300000x1_S3300000x32_1_0_0_1 rfl rfl rfl rfl bcast_S_S100000x32
    bcast_S100000x1_S100000x32_0_1 bcast_S32_S1x32_1 bcast_S1x32_S100000x32_0_1 y
    (val_main_v20 (F := Ideal) ei) (val_main_v9 (F := Ideal) ei) dv2 b v j

/-! ## The contents at the boundaries, from the launch to the second region's entry -/

section Chain
variable (m : (ℓ : Loc nD τ sig) → Buf (Elt Ideal) ℓ) (ρ : Dev nD → PrngReg) (c : Dev nD)

/-- Across the two short stretches before the first region. -/
theorem W3_of_W1 (r : Ref sig .tc) (h1 : r ∉ [main_call0_v0, main_call0_v1, main_v14]) (h2 : r ∉ [main_v15, main_v16]) :
    W3 m ρ c (Proc.devRef .tc r) = W1 m ρ c (Proc.devRef .tc r) :=
  (keep_hostOps0_2 _ r h2).trans (keep_hostOps0_1 _ r h1)

/-- Across the three stretches between the first region and the second. -/
theorem W7_of_W4 (r : Ref sig .tc) (h : r ∉ [main_c, main_v18, main_v19, main_c_3, main_v20, main_v21, main_v22, main_v23, main_v24, main_cst_4, main_v25, main_v26, main_v27, main_v28, main_v29, main_v30, main_v31, main_v32])
    (h1 : r ∉ [main_call1_cst, main_call1_v0, main_v33]) (h2 : r ∉ [main_v34]) :
    W7 m ρ c (Proc.devRef .tc r) = W4 m ρ c (Proc.devRef .tc r) :=
  ((keep_hostOps1_2 _ r h2).trans (keep_hostOps1_1 _ r h1)).trans (keep_hostOps1 _ r h)

/-- An argument no stretch writes and the first region does not hold as an array is, at the second region's entry,
    as launched. -/
theorem W7_arg (r : Ref sig .tc) (h0 : r ∉ [main_v0, main_v1, main_v2, main_v3, main_v4, main_v5, main_v6, main_cst, main_v7, main_cst_0, main_v8, main_v9, main_v10, main_cst_1, main_v11, main_v12, main_v13, main_cst_2])
    (h01 : r ∉ [main_call0_v0, main_call0_v1, main_v14]) (h02 : r ∉ [main_v15, main_v16]) (hreg : ∀ w, Pipeline.arrRef spec0 w ≠ r)
    (h1 : r ∉ [main_c, main_v18, main_v19, main_c_3, main_v20, main_v21, main_v22, main_v23, main_v24, main_cst_4, main_v25, main_v26, main_v27, main_v28, main_v29, main_v30, main_v31, main_v32])
    (h11 : r ∉ [main_call1_cst, main_call1_v0, main_v33]) (h12 : r ∉ [main_v34]) :
    W7 m ρ c (Proc.devRef .tc r) = W0 m ρ c (Proc.devRef .tc r) :=
  (W7_of_W4 m ρ c r h1 h11 h12).trans ((W4_of_ne m ρ c r hreg).trans
    ((W3_of_W1 m ρ c r h01 h02).trans (keep_hostOps0 _ r h0)))

/-! ### The index columns -/

theorem W1_v1 : W1 m ρ c (Proc.devRef .tc main_v1) = val_main_v1 (F := Ideal) (m ((c : Thread nD τ).loc main_arg1)) := s0_v1 (W0 m ρ c)
theorem W1_v3 : W1 m ρ c (Proc.devRef .tc main_v3) = val_main_v3 (F := Ideal) (m ((c : Thread nD τ).loc main_arg1)) := s0_v3 (W0 m ρ c)
theorem W1_v5 : W1 m ρ c (Proc.devRef .tc main_v5) = val_main_v5 (F := Ideal) (m ((c : Thread nD τ).loc main_arg1)) := s0_v5 (W0 m ρ c)
theorem W1_v6 : W1 m ρ c (Proc.devRef .tc main_v6) = val_main_v6 (F := Ideal) (m ((c : Thread nD τ).loc main_arg1)) := s0_v6 (W0 m ρ c)

/-- A buffer the first stretch wrote and nothing later touches: at the first region's exit as after that stretch. -/
theorem W4_of_W1 (r : Ref sig .tc) (h01 : r ∉ [main_call0_v0, main_call0_v1, main_v14]) (h02 : r ∉ [main_v15, main_v16])
    (hreg : ∀ w, Pipeline.arrRef spec0 w ≠ r) :
    W4 m ρ c (Proc.devRef .tc r) = W1 m ρ c (Proc.devRef .tc r) :=
  (W4_of_ne m ρ c r hreg).trans (W3_of_W1 m ρ c r h01 h02)

theorem W4_v5 : W4 m ρ c (Proc.devRef .tc main_v5) = val_main_v5 (F := Ideal) (m ((c : Thread nD τ).loc main_arg1)) :=
  (W4_of_W1 m ρ c main_v5 (by decide) (by decide) (by decide)).trans (W1_v5 m ρ c)
theorem W4_v6 : W4 m ρ c (Proc.devRef .tc main_v6) = val_main_v6 (F := Ideal) (m ((c : Thread nD τ).loc main_arg1)) :=
  (W4_of_W1 m ρ c main_v6 (by decide) (by decide) (by decide)).trans (W1_v6 m ρ c)

theorem W7_v5 : W7 m ρ c (Proc.devRef .tc main_v5) = val_main_v5 (F := Ideal) (m ((c : Thread nD τ).loc main_arg1)) :=
  (W7_of_W4 m ρ c main_v5 (by decide) (by decide) (by decide)).trans (W4_v5 m ρ c)
theorem W7_v6 : W7 m ρ c (Proc.devRef .tc main_v6) = val_main_v6 (F := Ideal) (m ((c : Thread nD τ).loc main_arg1)) :=
  (W7_of_W4 m ρ c main_v6 (by decide) (by decide) (by decide)).trans (W4_v6 m ρ c)
theorem W7_v1 : W7 m ρ c (Proc.devRef .tc main_v1) = val_main_v1 (F := Ideal) (m ((c : Thread nD τ).loc main_arg1)) :=
  (W7_of_W4 m ρ c main_v1 (by decide) (by decide) (by decide)).trans
    ((W4_of_W1 m ρ c main_v1 (by decide) (by decide) (by decide)).trans (W1_v1 m ρ c))
theorem W7_v3 : W7 m ρ c (Proc.devRef .tc main_v3) = val_main_v3 (F := Ideal) (m ((c : Thread nD τ).loc main_arg1)) :=
  (W7_of_W4 m ρ c main_v3 (by decide) (by decide) (by decide)).trans
    ((W4_of_W1 m ρ c main_v3 (by decide) (by decide) (by decide)).trans (W1_v3 m ρ c))

/-- The second layer's bias is as launched. -/
theorem W7_arg5 : W7 m ρ c (Proc.devRef .tc main_arg5) = (m ((c : Thread nD τ).loc main_arg5)) :=
  W7_arg m ρ c main_arg5 (by decide) (by decide) (by decide) (by decide) (by decide) (by decide) (by decide)

/-! ### The degree factor and the first layer's operands at the first region's entry -/

theorem W2_v14 : W2 m ρ c (Proc.devRef .tc main_v14) = val_main_v14 (F := Ideal) (m ((c : Thread nD τ).loc main_arg1)) := by
  refine (s01_v14 (W1 m ρ c)).trans ?_
  rw [show W1 m ρ c (Proc.devRef .tc main_v12) = val_main_v12 (F := Ideal) (m ((c : Thread nD τ).loc main_arg1)) from s0_v12 (W0 m ρ c),
    show W1 m ρ c (Proc.devRef .tc main_v13) = val_main_v13 (F := Ideal) (m ((c : Thread nD τ).loc main_arg1)) from s0_v13 (W0 m ρ c),
    show W1 m ρ c (Proc.devRef .tc main_cst_2) = val_main_cst_2 (F := Ideal) from s0_cst2 (W0 m ρ c)]
  rfl

theorem W3_v15 : W3 m ρ c (Proc.devRef .tc main_v15) = (broadcastInDim S100000x1 ![0] bcast_S100000_S100000x1_0 (val_main_v14 (F := Ideal) (m ((c : Thread nD τ).loc main_arg1)))) :=
  (s02_v15 (W2 m ρ c)).trans (congrArg _ (W2_v14 m ρ c))

theorem W3_v16 : W3 m ρ c (Proc.devRef .tc main_v16) = val_main_v30 (F := Ideal) (m ((c : Thread nD τ).loc main_arg2)) :=
  (s02_v16 (W2 m ρ c)).trans (congrArg _
    ((keep_hostOps0_1 (W1 m ρ c) main_arg2 (by decide)).trans (keep_hostOps0 (W0 m ρ c) main_arg2 (by decide))))

theorem W3_arg0 : W3 m ρ c (Proc.devRef .tc main_arg0) = (m ((c : Thread nD τ).loc main_arg0)) :=
  (W3_of_W1 m ρ c main_arg0 (by decide) (by decide)).trans (keep_hostOps0 (W0 m ρ c) main_arg0 (by decide))

/-! ### The first region's exit -/

/-- The factor column is an input of the first region: unchanged by it. -/
theorem W4_v15 : W4 m ρ c (Proc.devRef .tc main_v15) = (broadcastInDim S100000x1 ![0] bcast_S100000_S100000x1_0 (val_main_v14 (F := Ideal) (m ((c : Thread nD τ).loc main_arg1)))) :=
  ((W4_arr m ρ c 2).trans (((dat0 (V3 m ρ) c).arrAt_in 2 rfl _).trans (A_eq0 (V3 m ρ) c 2))).trans (W3_v15 m ρ c)

theorem W4_arg3 : W4 m ρ c (Proc.devRef .tc main_arg3) = (m ((c : Thread nD τ).loc main_arg3)) :=
  (W4_of_W1 m ρ c main_arg3 (by decide) (by decide) (by decide)).trans (keep_hostOps0 (W0 m ρ c) main_arg3 (by decide))

/-- The first region leaves the features' product with the transposed weights, every row scaled by its node's factor. -/
theorem W4_v17 : W4 m ρ c (Proc.devRef .tc main_v17)
    = scaled (K := 64) (D := 32) (m ((c : Thread nD τ).loc main_arg0)) (val_main_v30 (F := Ideal) (m ((c : Thread nD τ).loc main_arg2))) (broadcastInDim S100000x1 ![0] bcast_S100000_S100000x1_0 (val_main_v14 (F := Ideal) (m ((c : Thread nD τ).loc main_arg1)))) := by
  have h := region0_value (V3 m ρ) c
  have e0 : V3 m ρ c main_arg0 = (m ((c : Thread nD τ).loc main_arg0)) := W3_arg0 m ρ c
  have e1 : V3 m ρ c main_v16 = val_main_v30 (F := Ideal) (m ((c : Thread nD τ).loc main_arg2)) := W3_v16 m ρ c
  have e2 : V3 m ρ c main_v15 = (broadcastInDim S100000x1 ![0] bcast_S100000_S100000x1_0 (val_main_v14 (F := Ideal) (m ((c : Thread nD τ).loc main_arg1)))) := W3_v15 m ρ c
  rw [e0, e1, e2] at h
  exact (W4_arr m ρ c 3).trans h

/-! ### The first layer, its positive part, and the second layer's weights -/

theorem W5_v32 : W5 m ρ c (Proc.devRef .tc main_v32) = (layerK (m ((c : Thread nD τ).loc main_arg0)) (val_main_v30 (F := Ideal) (m ((c : Thread nD τ).loc main_arg2))) (m ((c : Thread nD τ).loc main_arg3)) (val_main_v20 (F := Ideal) (m ((c : Thread nD τ).loc main_arg1))) (val_main_v9 (F := Ideal) (m ((c : Thread nD τ).loc main_arg1))) (val_main_v14 (F := Ideal) (m ((c : Thread nD τ).loc main_arg1)))) := by
  funext (i : (⟨2, ![NN, 32]⟩ : Shape).Idx)
  obtain ⟨v, j, rfl⟩ : ∃ (v : Fin NN) (j : Fin 32), i = ix2 v j := ⟨i 0, i 1, eq_ix2 i⟩
  refine (s1_v32_at (W4 m ρ c) (m ((c : Thread nD τ).loc main_arg1)) _ _ _ (W4_v5 m ρ c) (W4_v6 m ρ c) (W4_v17 m ρ c) (W4_v15 m ρ c)
    (W4_arg3 m ρ c) v j).trans ?_
  rw [layerK_at, bcast_vec_col_at]
  refine congrArg (fun s => s * (val_main_v14 (F := Ideal) (m ((c : Thread nD τ).loc main_arg1))) (ix1 v) + (m ((c : Thread nD τ).loc main_arg3)) (ix1 j)) ?_
  refine Finset.sum_congr rfl fun e _ => ?_
  rw [scaled_at, bcast_vec_col_at]

theorem W6_v33 : W6 m ρ c (Proc.devRef .tc main_v33) = relu (layerK (m ((c : Thread nD τ).loc main_arg0)) (val_main_v30 (F := Ideal) (m ((c : Thread nD τ).loc main_arg2))) (m ((c : Thread nD τ).loc main_arg3)) (val_main_v20 (F := Ideal) (m ((c : Thread nD τ).loc main_arg1))) (val_main_v9 (F := Ideal) (m ((c : Thread nD τ).loc main_arg1))) (val_main_v14 (F := Ideal) (m ((c : Thread nD τ).loc main_arg1)))) := by
  refine (s11_v33 (W5 m ρ c)).trans ?_
  rw [W5_v32 m ρ c]
  exact max_zero_eq_relu bcast_S_S100000x32 _

/-- (i) At the second region's entry the features are the positive part of the first layer. -/
theorem W7_v33 : W7 m ρ c (Proc.devRef .tc main_v33) = relu (layerK (m ((c : Thread nD τ).loc main_arg0)) (val_main_v30 (F := Ideal) (m ((c : Thread nD τ).loc main_arg2))) (m ((c : Thread nD τ).loc main_arg3)) (val_main_v20 (F := Ideal) (m ((c : Thread nD τ).loc main_arg1))) (val_main_v9 (F := Ideal) (m ((c : Thread nD τ).loc main_arg1))) (val_main_v14 (F := Ideal) (m ((c : Thread nD τ).loc main_arg1)))) :=
  (keep_hostOps1_2 (W6 m ρ c) main_v33 (by decide)).trans (W6_v33 m ρ c)

/-- (ii) The second layer's weights, transposed. -/
theorem W7_v34 : W7 m ρ c (Proc.devRef .tc main_v34) = val_main_v75 (F := Ideal) (m ((c : Thread nD τ).loc main_arg4)) :=
  (s12_v34 (W6 m ρ c)).trans (congrArg _
    (((keep_hostOps1_1 (W5 m ρ c) main_arg4 (by decide)).trans (keep_hostOps1 (W4 m ρ c) main_arg4 (by decide))).trans
      ((W4_of_W1 m ρ c main_arg4 (by decide) (by decide) (by decide)).trans
        (keep_hostOps0 (W0 m ρ c) main_arg4 (by decide)))))

/-- (iii) The factor column holds, at row v, node v's factor. -/
theorem W7_v15 (v : Fin NN) : W7 m ρ c (Proc.devRef .tc main_v15) (ix2 v (0 : Fin 1)) = (val_main_v14 (F := Ideal) (m ((c : Thread nD τ).loc main_arg1))) (ix1 v) := by
  rw [(W7_of_W4 m ρ c main_v15 (by decide) (by decide) (by decide)).trans (W4_v15 m ρ c)]
  exact bcast_vec_col_at bcast_S100000_S100000x1_0 _ v

end Chain

end Cert.KernelIdeal.Gcn

end
-- ==== Proof.KernelChain2.lean ====
/-
  THE KERNEL'S RUN FROM ITS SECOND MATRIX PRODUCT TO THE RESULT. Given what the TensorCore's buffers hold when the
  second matrix-product region is entered (the first layer's positive part, the transposed second weights, the per-node
  factors as a column, the index vectors, the second bias), the result buffer holds, per edge, the logistic function of the
  inner product of the edge's two endpoint rows of the second layer, the target's factor applied outside the segment sums.

  The region leaves the product scaled row by row; the host stretch after it gathers the sources' rows, sums them per
  target node, scales by the target's factor, adds the bias and transposes (`layer2Fn`, read at an index by
  `layer2Fn_apply`); each of the two takes wraps its node numbers, tests them against the table's range, gathers the
  columns and keeps the gathered element where the test holds (`takeTail` of `rangeFn` of `wrapE`, read at an index of an
  in-range node number by `take_apply`); the last region is the decoder, and the last operation drops its unit axis.
-/
import proofs.«418788_j89043261981497_3_alg».proof.Proof.Gen.KernelIdeal.Frame
import proofs.«418788_j89043261981497_3_alg».proof.Proof.RefRead
import proofs.«418788_j89043261981497_3_alg».proof.Proof.Spec
import proofs.«418788_j89043261981497_3_alg».proof.Proof.LibGatherScatter
import proofs.«418788_j89043261981497_3_alg».proof.Proof.LibColumnTake
import proofs.«418788_j89043261981497_3_alg».proof.Proof.LibAfter
import proofs.«418788_j89043261981497_3_alg».proof.Proof.RegionValue
import Idealize.ShloMosaic.Lib.ValueLayout

set_option maxRecDepth 16384

open scoped BigOperators

noncomputable section

namespace Cert.KernelIdeal.Gcn

open Cert.KernelIdeal Cert.KernelIdeal.Gen Cert.Gcn Cert.ReferenceIdeal.ReadP
open Idealize.ShloMosaic Idealize.ShloMosaic.TcCoe Idealize.ShloMosaic.ValueIdx Idealize.ShloMosaic.RowOps
  Idealize.ShloMosaic.StableHlo.Predicate Idealize.ShloMosaic.StableHlo

namespace Tail

/-! ## The host stretches as functions of what they read -/

/-- The second layer's host operations as one function of the scaled product, the two index columns, the per-node
    factors and the bias: gather the sources' rows, sum them per target node, scale by the target's factor, add the
    bias, transpose. -/
def layer2Fn (a35 : (⟨S100000x16, .f32⟩ : BufTy).Contents (Elt Ideal)) (v5 v6 : (⟨S3300000, .i32⟩ : BufTy).Contents (Elt Ideal))
    (a15 : (⟨S100000x1, .f32⟩ : BufTy).Contents (Elt Ideal)) (b : (⟨S16, .f32⟩ : BufTy).Contents (Elt Ideal)) :
    (⟨S16x100000, .f32⟩ : BufTy).Contents (Elt Ideal) :=
  transpose S16x100000 [1, 0]
    (addf
      (mulf
        (Host.scatterAdd scatter_S100000x16_S3300000x1_S3300000x16_1_0_0_1
          (broadcastInDim S100000x16 ![] bcast_S_S100000x16 (constant (F := Ideal) S_ .f32 0x00000000#32))
          (broadcastInDim S3300000x1 ![0] bcast_S3300000_S3300000x1_0 v6)
          (Host.gather gather_S100000x16_S3300000x1_S3300000x16_1_0_n_n_0_1_116 a35
            (broadcastInDim S3300000x1 ![0] bcast_S3300000_S3300000x1_0
              (select (cmpi .slt v5 (broadcastInDim S3300000 ![] bcast_S_S3300000 (constantI S_ 32 0#32)))
                (addi v5 (broadcastInDim S3300000 ![] bcast_S_S3300000 (constantI S_ 32 100000#32))) v5))))
        (broadcastInDim S100000x16 ![0, 1] bcast_S100000x1_S100000x16_0_1 a15))
      (broadcastInDim S100000x16 ![0, 1] bcast_S1x16_S100000x16_0_1 (broadcastInDim S1x16 ![1] bcast_S16_S1x16_1 b)))
    transposes_S100000x16_S16x100000_1_0

/-- An [M] vector of node numbers as an [M × 1] column. -/
def colM (v : (⟨S3300000, .i32⟩ : BufTy).Contents (Elt Ideal)) : IVec ⟨2, ![MM, 1]⟩ 32 :=
  broadcastInDim S3300000x1 ![0] bcast_S3300000_S3300000x1_0 v

/-- The same with a negative number first wrapped by the number of nodes. -/
def wrapM (v : (⟨S3300000, .i32⟩ : BufTy).Contents (Elt Ideal)) : IVec ⟨2, ![MM, 1]⟩ 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- An [E] vector of node numbers as an [E × 1] column, a negative number first wrapped by the number of nodes. -/
def wrapE (v1 : (⟨S3200000, .i32⟩ : BufTy).Contents (Elt Ideal)) : (⟨S3200000x1, .i32⟩ : BufTy).Contents (Elt Ideal) :=
  broadcastInDim S3200000x1 ![0] bcast_S3200000_S3200000x1_0
    (select (cmpi .slt v1 (broadcastInDim S3200000 ![] bcast_S_S3200000 (constantI S_ 32 0#32)))
      (addi v1 (broadcastInDim S3200000 ![] bcast_S_S3200000 (constantI S_ 32 100000#32))) v1)

/-- The range test of a take: per row of the column, whether its node number lies in [0, 99999], reduced by `and` over the
    column's unit axis. -/
def rangeFn (col : (⟨S3200000x1, .i32⟩ : BufTy).Contents (Elt Ideal)) : (⟨S3200000, .i1⟩ : BufTy).Contents (Elt Ideal) :=
  Host.reduce IntOp.andi
    (andi (cmpi .sge col (broadcastInDim S3200000x1 ![] bcast_S_S3200000x1 (constantI S_ 32 0#32)))
      (cmpi .sle col
        (broadcastInDim S3200000x1 ![0, 1] bcast_S1x1_S3200000x1_0_1
          (broadcastInDim S1x1 ![1] bcast_S1_S1x1_1 (constantI S1 32 99999#32)))))
    (constantI S_ 1 1#1) reducesTo_S3200000x1_S3200000_d1 h_S_

/-- The end of a take: the table's columns gathered at the column of node numbers, kept where the range test holds. -/
def takeTail (r : (⟨S3200000, .i1⟩ : BufTy).Contents (Elt Ideal)) (zt : (⟨S16x100000, .f32⟩ : BufTy).Contents (Elt Ideal))
    (col : (⟨S3200000x1, .i32⟩ : BufTy).Contents (Elt Ideal)) : (⟨S16x3200000, .f32⟩ : BufTy).Contents (Elt Ideal) :=
  select (broadcastInDim S16x3200000 ![1] bcast_S3200000_S16x3200000_1 r)
    (Host.gather gather_S16x100000_S3200000x1_S16x3200000_0_1_n_n_1_1_161 zt col)
    (broadcastInDim S16x3200000 ![] bcast_S_S16x3200000 (constant (F := Ideal) S_ .f32 0x7FC00000#32))

/-! ## The functions read at an index -/

theorem ij_eq_ix2 {n k : Nat} (p : Fin n) (q : Fin k) : ij p q = ix2 p q := by
  funext a; match a with | ⟨0, _⟩ => rfl | ⟨1, _⟩ => rfl

theorem ixP_eq_ix2 {n : Nat} (p : Fin n) : ixP p = ix2 p (0 : Fin 1) := by
  funext a; match a with | ⟨0, _⟩ => rfl | ⟨1, _⟩ => rfl
/-- The second layer's host operations read at an index: the sum over the rows landing on node `v` of the sources'
    rows of the scaled product, times the node's factor, plus the bias. -/
theorem layer2Fn_apply (a35 : (⟨S100000x16, .f32⟩ : BufTy).Contents (Elt Ideal))
    (v5 v6 : (⟨S3300000, .i32⟩ : BufTy).Contents (Elt Ideal))
    (a15 : (⟨S100000x1, .f32⟩ : BufTy).Contents (Elt Ideal)) (b : (⟨S16, .f32⟩ : BufTy).Contents (Elt Ideal))
    (j : Fin 16) (v : Fin NN) :
    layer2Fn a35 v5 v6 a15 b (ix2 j v)
      = (∑ e ∈ inc (colM v6) v, a35 (ix2 (node (wrapM v5) e) j)) * a15 (ix2 v (0 : Fin 1)) + b (ix1 j) := by
  unfold layer2Fn
  refine (transpose_ix2_apply _ _ j v).trans ?_
  rw [addf_apply, mulf_apply]
  have h1 : (broadcastInDim S100000x16 ![0, 1] bcast_S100000x1_S100000x16_0_1 a15) (ix2 v j) = a15 (ix2 v (0 : Fin 1)) := by
    rw [← ij_eq_ix2, bcast_of_col, ixP_eq_ix2]
  have h2 : (broadcastInDim S100000x16 ![0, 1] bcast_S1x16_S100000x16_0_1
      (broadcastInDim S1x16 ![1] bcast_S16_S1x16_1 b)) (ix2 v j) = b (ix1 j) := by
    rw [← ij_eq_ix2, bcast_cols, ofFin_eq_ix1]
  rw [h1, h2]
  have hs : ∀ (Z : (⟨S100000x16, .f32⟩ : BufTy).Contents (Elt Ideal)) (I : (⟨S3300000x1, .i32⟩ : BufTy).Contents (Elt Ideal))
      (Up : (⟨S3300000x16, .f32⟩ : BufTy).Contents (Elt Ideal)),
      Host.scatterAdd (F := Ideal) (φ := .f32) scatter_S100000x16_S3300000x1_S3300000x16_1_0_0_1 Z I Up (ix2 v j)
        = Z (ix2 v j) + ∑ e ∈ Finset.univ.filter (fun e : Fin MM => lands I e v.val), Up (ix2 e j) := fun Z I Up =>
    scatterAdd_rows scatter_S100000x16_S3300000x1_S3300000x16_1_0_0_1 rfl rfl rfl rfl Z I Up v j
  rw [hs]
  have h0 : (broadcastInDim S100000x16 ![] bcast_S_S100000x16 (constant (F := Ideal) S_ .f32 0x00000000#32)) (ix2 v j) = (0 : EReal) := by
    rw [bcast_scalar _ (by decide), constant_apply, Ideal.ofBits_zero_f32]
  rw [h0, zero_add]
  have hg : ∀ (I : (⟨S3300000x1, .i32⟩ : BufTy).Contents (Elt Ideal)) (e : Fin MM),
      Host.gather gather_S100000x16_S3300000x1_S3300000x16_1_0_n_n_0_1_116 a35 I (ix2 e j) = a35 (ix2 (clampRow NN hNN I e) j) :=
    fun I e => gather_rows gather_S100000x16_S3300000x1_S3300000x16_1_0_n_n_0_1_116 rfl rfl rfl rfl rfl rfl a35 I e j hNN
  simp only [hg]
  unfold inc colM wrapM
  with_reducible rfl

/-- The take read at an index whose node number is in range: the range test holds there, so the select keeps the gathered
    element, the table's column of that node. -/
theorem take_apply (zt : (⟨S16x100000, .f32⟩ : BufTy).Contents (Elt Ideal))
    (col : (⟨S3200000x1, .i32⟩ : BufTy).Contents (Elt Ideal)) (k : Fin 16) (e : Fin EE)
    (h0 : 0 ≤ (col (ixP e)).toInt) (h1 : (col (ixP e)).toInt ≤ 99999) :
    takeTail (rangeFn col) zt col (ix2 k e) = zt (ix2 k (node col e)) := by
  unfold takeTail
  rw [select_apply]
  have hb : (broadcastInDim S16x3200000 ![1] bcast_S3200000_S16x3200000_1 (rangeFn col)) (ix2 k e) = rangeFn col (ix1 e) :=
    bcast_along1 (by decide) bcast_S3200000_S16x3200000_1 (rangeFn col) k e
  have hx : (andi (cmpi .sge col (broadcastInDim S3200000x1 ![] bcast_S_S3200000x1 (constantI S_ 32 0#32)))
      (cmpi .sle col
        (broadcastInDim S3200000x1 ![0, 1] bcast_S1x1_S3200000x1_0_1
          (broadcastInDim S1x1 ![1] bcast_S1_S1x1_1 (constantI S1 32 99999#32))))) (ixP e) = 1#1 :=
    range_word 99999#32 (col (ixP e)) h0 (by rw [show (99999#32 : BitVec 32).toInt = 99999 by decide]; exact h1)
  have hr : rangeFn col (ix1 e) = 1#1 := by
    unfold rangeFn
    exact reduce_andi_col1 _ _ reducesTo_S3200000x1_S3200000_d1 h_S_ rfl e hx
  rw [hb, hr, select_one]
  exact gather_cols gather_S16x100000_S3200000x1_S16x3200000_0_1_n_n_1_1_161 rfl rfl rfl rfl rfl rfl zt col k e hNN

theorem layerK_apply {K D : Nat} (h : (⟨2, ![NN, K]⟩ : Shape).Idx → EReal) (wt : (⟨2, ![K, D]⟩ : Shape).Idx → EReal)
    (b : (⟨1, ![D]⟩ : Shape).Idx → EReal) (sI dI : IVec ⟨2, ![MM, 1]⟩ 32) (dv : (⟨1, ![NN]⟩ : Shape).Idx → EReal)
    (v : Fin NN) (j : Fin D) :
    layerK h wt b sI dI dv (ix2 v j)
      = (∑ e ∈ inc dI v, lin h wt (node sI e) j * dv (ix1 (node sI e))) * dv (ix1 v) + b (ix1 j) := rfl

theorem scaled_apply {K D : Nat} (h : (⟨2, ![NN, K]⟩ : Shape).Idx → EReal) (wt : (⟨2, ![K, D]⟩ : Shape).Idx → EReal)
    (dv2 : (⟨2, ![NN, 1]⟩ : Shape).Idx → EReal) (v : Fin NN) (j : Fin D) :
    scaled h wt dv2 (ix2 v j) = lin h wt v j * dv2 (ix2 v (0 : Fin 1)) := rfl

/-! ## The run, boundary by boundary -/

section Run

variable (m : (ℓ : Loc nD τ sig) → Buf (Elt Ideal) ℓ) (ρ : Dev nD → PrngReg) (c : Dev nD)

/-- A stretch of host operations leaves a buffer none of them writes as it was. -/
macro "tail_not_written" l:ident : tactic =>
  `(tactic| (refine StableHlo.after_of_forall_not_mem _ _ (List.forall_iff_forall_mem.mp ?_)
             simp only [$l:ident, List.take_succ_cons, List.take_zero, List.drop_succ_cons, List.drop_zero,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The second matrix-product region leaves its result array at the scaled product of what it found. -/
theorem W8_v35 : W8 m ρ c (Proc.devRef .tc main_v35)
    = scaled (K := 32) (D := 16) (W7 m ρ c (Proc.devRef .tc main_v33)) (W7 m ρ c (Proc.devRef .tc main_v34))
        (W7 m ρ c (Proc.devRef .tc main_v15)) :=
  (W8_arr m ρ c 3).trans (region1_value (V7 m ρ) c)
theorem W8_v15 : W8 m ρ c (Proc.devRef .tc main_v15) = W7 m ρ c (Proc.devRef .tc main_v15) :=
  (W8_arr m ρ c 2).trans (((dat1 (V7 m ρ) c).arrAt_in 2 rfl _).trans (A_eq1 (V7 m ρ) c 2))
theorem W8_v5 : W8 m ρ c (Proc.devRef .tc main_v5) = W7 m ρ c (Proc.devRef .tc main_v5) := W8_of_ne m ρ c main_v5 (by decide)
theorem W8_v6 : W8 m ρ c (Proc.devRef .tc main_v6) = W7 m ρ c (Proc.devRef .tc main_v6) := W8_of_ne m ρ c main_v6 (by decide)
theorem W8_v1 : W8 m ρ c (Proc.devRef .tc main_v1) = W7 m ρ c (Proc.devRef .tc main_v1) := W8_of_ne m ρ c main_v1 (by decide)
theorem W8_v3 : W8 m ρ c (Proc.devRef .tc main_v3) = W7 m ρ c (Proc.devRef .tc main_v3) := W8_of_ne m ρ c main_v3 (by decide)
theorem W8_arg5 : W8 m ρ c (Proc.devRef .tc main_arg5) = W7 m ρ c (Proc.devRef .tc main_arg5) :=
  W8_of_ne m ρ c main_arg5 (by decide)

set_option maxHeartbeats 0 in
/-- The stretch after the region: the second layer, transposed. -/
theorem W9_v51 : W9 m ρ c (Proc.devRef .tc main_v51)
    = layer2Fn (W8 m ρ c (Proc.devRef .tc main_v35)) (W8 m ρ c (Proc.devRef .tc main_v5)) (W8 m ρ c (Proc.devRef .tc main_v6))
        (W8 m ρ c (Proc.devRef .tc main_v15)) (W8 m ρ c (Proc.devRef .tc main_arg5)) := by
  show StableHlo.after hostOps2 (W8 m ρ c) (Proc.devRef .tc main_v51) = _
  generalize W8 m ρ c = X
  after_results_simp
  unfold layer2Fn
  with_reducible rfl
theorem W9_v1 : W9 m ρ c (Proc.devRef .tc main_v1) = W8 m ρ c (Proc.devRef .tc main_v1) := by
  show StableHlo.after hostOps2 (W8 m ρ c) (Proc.devRef .tc main_v1) = _
  tail_not_written hostOps2
theorem W9_v3 : W9 m ρ c (Proc.devRef .tc main_v3) = W8 m ρ c (Proc.devRef .tc main_v3) := by
  show StableHlo.after hostOps2 (W8 m ρ c) (Proc.devRef .tc main_v3) = _
  tail_not_written hostOps2
theorem W10_v51 : W10 m ρ c (Proc.devRef .tc main_v51) = W9 m ρ c (Proc.devRef .tc main_v51) := by
  show StableHlo.after hostOps2_1 (W9 m ρ c) (Proc.devRef .tc main_v51) = _
  tail_not_written hostOps2_1
theorem W10_v3 : W10 m ρ c (Proc.devRef .tc main_v3) = W9 m ρ c (Proc.devRef .tc main_v3) := by
  show StableHlo.after hostOps2_1 (W9 m ρ c) (Proc.devRef .tc main_v3) = _
  tail_not_written hostOps2_1
theorem W11_v52 : W11 m ρ c (Proc.devRef .tc main_v52) = W10 m ρ c (Proc.devRef .tc main_v52) := by
  show StableHlo.after hostOps2_2 (W10 m ρ c) (Proc.devRef .tc main_v52) = _
  tail_not_written hostOps2_2

/-! ### The two takes, each split after its eighteenth operation -/

/-- The contents after the first eighteen operations of this take. -/
def M10 : Valuation τ sig (Elt Ideal) := StableHlo.after (List.take 18 hostOps2_1) (W9 m ρ c)

theorem M10_split : W10 m ρ c = StableHlo.after (List.drop 18 hostOps2_1) (M10 m ρ c) := by
  show StableHlo.after hostOps2_1 (W9 m ρ c)
    = StableHlo.after (List.drop 18 hostOps2_1) (StableHlo.after (List.take 18 hostOps2_1) (W9 m ρ c))
  generalize W9 m ρ c = X
  exact (congrArg (fun l => StableHlo.after l X) (List.take_append_drop 18 hostOps2_1).symm).trans
    (Cert.LibAfter.after_append _ _ X)

set_option maxHeartbeats 0 in
theorem M10_col : M10 m ρ c (Proc.devRef .tc main_call2_v5) = wrapE (W9 m ρ c (Proc.devRef .tc main_v1)) := by
  unfold M10
  generalize W9 m ρ c = X
  simp only [hostOps2_1, List.take_succ_cons, List.take_zero]
  after_results_simp
  simp only [TRef.ofBuf, TRef.toBuf, cast_eq]
  unfold wrapE
  with_reducible rfl

set_option maxHeartbeats 0 in
theorem M10_range : M10 m ρ c (Proc.devRef .tc main_call2_v12) = rangeFn (wrapE (W9 m ρ c (Proc.devRef .tc main_v1))) := by
  unfold M10
  generalize W9 m ρ c = X
  simp only [hostOps2_1, List.take_succ_cons, List.take_zero]
  after_results_simp
  simp only [TRef.ofBuf, TRef.toBuf, cast_eq]
  unfold rangeFn wrapE
  with_reducible rfl

theorem M10_v51 : M10 m ρ c (Proc.devRef .tc main_v51) = W9 m ρ c (Proc.devRef .tc main_v51) := by
  unfold M10
  tail_not_written hostOps2_1

set_option maxHeartbeats 0 in
theorem M10_tail (X : Valuation τ sig (Elt Ideal)) :
    StableHlo.after (List.drop 18 hostOps2_1) X (Proc.devRef .tc main_v52)
      = takeTail (X (Proc.devRef .tc main_call2_v12)) (X (Proc.devRef .tc main_v51)) (X (Proc.devRef .tc main_call2_v5)) := by
  simp only [hostOps2_1, List.drop_succ_cons, List.drop_zero]
  after_results_simp
  simp only [TRef.ofBuf, TRef.toBuf, cast_eq]
  unfold takeTail
  with_reducible rfl

/-- The first take: the transposed second layer's columns at the wrapped source numbers, kept where in range. -/
theorem W10_v52 : W10 m ρ c (Proc.devRef .tc main_v52)
    = takeTail (rangeFn (wrapE (W9 m ρ c (Proc.devRef .tc main_v1)))) (W9 m ρ c (Proc.devRef .tc main_v51))
        (wrapE (W9 m ρ c (Proc.devRef .tc main_v1))) := by
  rw [M10_split, M10_tail, M10_range, M10_col, M10_v51]

/-- The contents after the first eighteen operations of this take. -/
def M11 : Valuation τ sig (Elt Ideal) := StableHlo.after (List.take 18 hostOps2_2) (W10 m ρ c)

theorem M11_split : W11 m ρ c = StableHlo.after (List.drop 18 hostOps2_2) (M11 m ρ c) := by
  show StableHlo.after hostOps2_2 (W10 m ρ c)
    = StableHlo.after (List.drop 18 hostOps2_2) (StableHlo.after (List.take 18 hostOps2_2) (W10 m ρ c))
  generalize W10 m ρ c = X
  exact (congrArg (fun l => StableHlo.after l X) (List.take_append_drop 18 hostOps2_2).symm).trans
    (Cert.LibAfter.after_append _ _ X)

set_option maxHeartbeats 0 in
theorem M11_col : M11 m ρ c (Proc.devRef .tc main_call3_v5) = wrapE (W10 m ρ c (Proc.devRef .tc main_v3)) := by
  unfold M11
  generalize W10 m ρ c = X
  simp only [hostOps2_2, List.take_succ_cons, List.take_zero]
  after_results_simp
  simp only [TRef.ofBuf, TRef.toBuf, cast_eq]
  unfold wrapE
  with_reducible rfl

set_option maxHeartbeats 0 in
theorem M11_range : M11 m ρ c (Proc.devRef .tc main_call3_v12) = rangeFn (wrapE (W10 m ρ c (Proc.devRef .tc main_v3))) := by
  unfold M11
  generalize W10 m ρ c = X
  simp only [hostOps2_2, List.take_succ_cons, List.take_zero]
  after_results_simp
  simp only [TRef.ofBuf, TRef.toBuf, cast_eq]
  unfold rangeFn wrapE
  with_reducible rfl

theorem M11_v51 : M11 m ρ c (Proc.devRef .tc main_v51) = W10 m ρ c (Proc.devRef .tc main_v51) := by
  unfold M11
  tail_not_written hostOps2_2

set_option maxHeartbeats 0 in
theorem M11_tail (X : Valuation τ sig (Elt Ideal)) :
    StableHlo.after (List.drop 18 hostOps2_2) X (Proc.devRef .tc main_v53)
      = takeTail (X (Proc.devRef .tc main_call3_v12)) (X (Proc.devRef .tc main_v51)) (X (Proc.devRef .tc main_call3_v5)) := by
  simp only [hostOps2_2, List.drop_succ_cons, List.drop_zero]
  after_results_simp
  simp only [TRef.ofBuf, TRef.toBuf, cast_eq]
  unfold takeTail
  with_reducible rfl

/-- The second take: the same at the wrapped target numbers. -/
theorem W11_v53 : W11 m ρ c (Proc.devRef .tc main_v53)
    = takeTail (rangeFn (wrapE (W10 m ρ c (Proc.devRef .tc main_v3)))) (W10 m ρ c (Proc.devRef .tc main_v51))
        (wrapE (W10 m ρ c (Proc.devRef .tc main_v3))) := by
  rw [M11_split, M11_tail, M11_range, M11_col, M11_v51]

/-- The decoder region leaves its result array at the logistic function of the columns' inner products. -/
theorem W12_v54 : W12 m ρ c (Proc.devRef .tc main_v54)
    = decodeAll (W11 m ρ c (Proc.devRef .tc main_v52)) (W11 m ρ c (Proc.devRef .tc main_v53)) :=
  (W12_arr m ρ c 2).trans (region2_value (V11 m ρ) c)

/-- The last operation drops the result's unit axis. -/
theorem W13_v55 : W13 m ρ c (Proc.devRef .tc main_v55)
    = shapeCast S3200000 (W12 m ρ c (Proc.devRef .tc main_v54)) shapeCasts_S1x3200000_S3200000 := by
  show StableHlo.after hostOps3 (W12 m ρ c) (Proc.devRef .tc main_v55) = _
  generalize W12 m ρ c = X
  after_results_simp
  rfl

end Run

/-! ## The reference's index columns are these functions of its index vectors -/

section Bridge

variable (ei : (⟨Cert.ReferenceIdeal.S2x3200000, .i32⟩ : BufTy).Contents (Elt Ideal))

theorem wrapM_v5 : wrapM (val_main_v5 (F := Ideal) ei) = val_main_v20 (F := Ideal) ei := by
  unfold wrapM val_main_v20 val_main_v19 val_main_v16 val_main_v18 val_main_v15 val_main_v17 val_main_c val_main_c_3
  with_reducible rfl

theorem colM_v6 : colM (val_main_v6 (F := Ideal) ei) = val_main_v9 (F := Ideal) ei := by
  unfold colM val_main_v9
  with_reducible rfl

theorem wrapE_v1 : wrapE (val_main_v1 (F := Ideal) ei) = val_main_v98 (F := Ideal) ei := by
  unfold wrapE val_main_v98 val_main_v97 val_main_v94 val_main_v96 val_main_v93 val_main_v95 val_main_c_20 val_main_c_21
  with_reducible rfl

theorem wrapE_v3 : wrapE (val_main_v3 (F := Ideal) ei) = val_main_v105 (F := Ideal) ei := by
  unfold wrapE val_main_v105 val_main_v104 val_main_v101 val_main_v103 val_main_v100 val_main_v102 val_main_c_22 val_main_c_23
  with_reducible rfl

end Bridge

/-! ## The second layer and the two takes at an index -/

section Chain

variable (m : (ℓ : Loc nD τ sig) → Buf (Elt Ideal) ℓ) (ρ : Dev nD → PrngReg) (c : Dev nD)

/-- The transposed second layer, entry (k, v): the layer with the target's factor outside the sum, at (v, k). -/
theorem z_apply (h1 : (⟨2, ![NN, 32]⟩ : Shape).Idx → EReal) (wt2 : (⟨2, ![32, 16]⟩ : Shape).Idx → EReal)
    (b2 : (⟨1, ![16]⟩ : Shape).Idx → EReal) (v5 v6 : (⟨S3300000, .i32⟩ : BufTy).Contents (Elt Ideal))
    (dv : (⟨1, ![NN]⟩ : Shape).Idx → EReal)
    (H33 : W7 m ρ c (Proc.devRef .tc main_v33) = h1) (H34 : W7 m ρ c (Proc.devRef .tc main_v34) = wt2)
    (H15 : ∀ v : Fin NN, W7 m ρ c (Proc.devRef .tc main_v15) (ix2 v (0 : Fin 1)) = dv (ix1 v))
    (H5 : W7 m ρ c (Proc.devRef .tc main_v5) = v5) (H6 : W7 m ρ c (Proc.devRef .tc main_v6) = v6)
    (Hb2 : W7 m ρ c (Proc.devRef .tc main_arg5) = b2) (k : Fin 16) (nd : Fin NN) :
    W9 m ρ c (Proc.devRef .tc main_v51) (ix2 k nd) = layerK h1 wt2 b2 (wrapM v5) (colM v6) dv (ix2 nd k) := by
  rw [W9_v51, layer2Fn_apply, W8_v35, W8_v5, W8_v6, W8_v15, W8_arg5, H33, H34, H5, H6, Hb2, layerK_apply]
  simp only [scaled_apply, H15]

/-- The first take's result, entry (k, e): the second layer's row of edge `e`'s source, entry `k`. -/
theorem v52_apply (zK : (⟨2, ![NN, 16]⟩ : Shape).Idx → EReal) (col : (⟨S3200000, .i32⟩ : BufTy).Contents (Elt Ideal))
    (hz : ∀ (k : Fin 16) (nd : Fin NN), W9 m ρ c (Proc.devRef .tc main_v51) (ix2 k nd) = zK (ix2 nd k))
    (H1 : W7 m ρ c (Proc.devRef .tc main_v1) = col) (k : Fin 16) (e : Fin EE)
    (h0 : 0 ≤ (wrapE col (ixP e)).toInt) (h1 : (wrapE col (ixP e)).toInt ≤ 99999) :
    W11 m ρ c (Proc.devRef .tc main_v52) (ix2 k e) = zK (ix2 (node (wrapE col) e) k) := by
  rw [W11_v52, W10_v52, W9_v1, W8_v1, H1, take_apply _ _ k e h0 h1, hz]

/-- The second take's result, entry (k, e): the second layer's row of edge `e`'s target, entry `k`. -/
theorem v53_apply (zK : (⟨2, ![NN, 16]⟩ : Shape).Idx → EReal) (col : (⟨S3200000, .i32⟩ : BufTy).Contents (Elt Ideal))
    (hz : ∀ (k : Fin 16) (nd : Fin NN), W9 m ρ c (Proc.devRef .tc main_v51) (ix2 k nd) = zK (ix2 nd k))
    (H3 : W7 m ρ c (Proc.devRef .tc main_v3) = col) (k : Fin 16) (e : Fin EE)
    (h0 : 0 ≤ (wrapE col (ixP e)).toInt) (h1 : (wrapE col (ixP e)).toInt ≤ 99999) :
    W11 m ρ c (Proc.devRef .tc main_v53) (ix2 k e) = zK (ix2 (node (wrapE col) e) k) := by
  rw [W11_v53, W10_v3, W9_v3, W8_v3, H3, W10_v51, take_apply _ _ k e h0 h1, hz]

theorem decode_apply (z : (⟨2, ![NN, 16]⟩ : Shape).Idx → EReal) (srcC dstC : IVec ⟨2, ![EE, 1]⟩ 32) (e : Fin EE) :
    decode z srcC dstC (ix1 e)
      = Ideal.logistic (∑ k : Fin 16, z (ix2 (node srcC e) k) * z (ix2 (node dstC e) k)) := rfl

theorem decodeAll_apply (zs zd : S16x3200000.Idx → EReal) (e : Fin EE) :
    decodeAll zs zd (ix2 (0 : Fin 1) e) = Ideal.logistic (∑ k : Fin 16, zs (ix2 k e) * zd (ix2 k e)) := rfl

end Chain

end Tail

open Tail

variable (m : (ℓ : Loc nD τ sig) → Buf (Elt Ideal) ℓ) (ρ : Dev nD → PrngReg) (c : Dev nD)

/-- THE KERNEL'S TAIL. If, when the second matrix-product region is entered, the buffers hold the first layer's positive
    part, the transposed second weights, the per-node factors as a column, the four index vectors and the second bias —
    each as the reference's stage function of the arguments —, and every wrapped source and target number is a node, then
    the result buffer ends at the two-layer network's decoding with the target's factor outside the segment sums. -/
theorem kernel_tail (x : (⟨2, ![NN, 64]⟩ : Shape).Idx → EReal)
    (ei : (⟨Cert.ReferenceIdeal.S2x3200000, .i32⟩ : BufTy).Contents (Elt Ideal))
    (w1 : (⟨Cert.ReferenceIdeal.S32x64, .f32⟩ : BufTy).Contents (Elt Ideal)) (b1 : (⟨1, ![32]⟩ : Shape).Idx → EReal)
    (w2 : (⟨Cert.ReferenceIdeal.S16x32, .f32⟩ : BufTy).Contents (Elt Ideal)) (b2 : (⟨1, ![16]⟩ : Shape).Idx → EReal)
    (H33 : W7 m ρ c (Proc.devRef .tc main_v33)
      = relu (layerK x (val_main_v30 (F := Ideal) w1) b1 (val_main_v20 (F := Ideal) ei) (val_main_v9 (F := Ideal) ei)
          (val_main_v14 (F := Ideal) ei)))
    (H34 : W7 m ρ c (Proc.devRef .tc main_v34) = val_main_v75 (F := Ideal) w2)
    (H15 : ∀ v : Fin NN, W7 m ρ c (Proc.devRef .tc main_v15) (ix2 v (0 : Fin 1)) = val_main_v14 (F := Ideal) ei (ix1 v))
    (H5 : W7 m ρ c (Proc.devRef .tc main_v5) = val_main_v5 (F := Ideal) ei)
    (H6 : W7 m ρ c (Proc.devRef .tc main_v6) = val_main_v6 (F := Ideal) ei)
    (H1 : W7 m ρ c (Proc.devRef .tc main_v1) = val_main_v1 (F := Ideal) ei)
    (H3 : W7 m ρ c (Proc.devRef .tc main_v3) = val_main_v3 (F := Ideal) ei)
    (Hb2 : W7 m ρ c (Proc.devRef .tc main_arg5) = b2)
    (hsrc : ∀ e : Fin EE, 0 ≤ ((val_main_v98 (F := Ideal) ei) (ixP e)).toInt
      ∧ ((val_main_v98 (F := Ideal) ei) (ixP e)).toInt ≤ 99999)
    (hdst : ∀ e : Fin EE, 0 ≤ ((val_main_v105 (F := Ideal) ei) (ixP e)).toInt
      ∧ ((val_main_v105 (F := Ideal) ei) (ixP e)).toInt ≤ 99999) :
    W13 m ρ c (Proc.devRef .tc main_v55)
      = outK x (val_main_v30 (F := Ideal) w1) b1 (val_main_v75 (F := Ideal) w2) b2 (val_main_v20 (F := Ideal) ei)
          (val_main_v9 (F := Ideal) ei) (val_main_v14 (F := Ideal) ei) (val_main_v98 (F := Ideal) ei)
          (val_main_v105 (F := Ideal) ei) := by
  have hz := fun (k : Fin 16) (nd : Fin NN) =>
    z_apply m ρ c _ _ b2 _ _ (val_main_v14 (F := Ideal) ei) H33 H34 H15 H5 H6 Hb2 k nd
  rw [wrapM_v5, colM_v6] at hz
  refine funext fun (i : (⟨1, ![EE]⟩ : Shape).Idx) => ?_
  obtain ⟨e, rfl⟩ : ∃ e : Fin EE, i = ix1 e := ⟨i 0, eq_ix1 i⟩
  have hs := hsrc e
  have hd := hdst e
  rw [← wrapE_v1] at hs
  rw [← wrapE_v3] at hd
  rw [W13_v55]
  refine (shapeCast_1a_a_apply _ _ e).trans ?_
  rw [W12_v54, decodeAll_apply]
  unfold outK
  rw [decode_apply]
  refine congrArg Ideal.logistic (Finset.sum_congr rfl fun k _ => ?_)
  rw [v52_apply m ρ c _ _ hz H1 k e hs.1 hs.2, v53_apply m ρ c _ _ hz H3 k e hd.1 hd.2, wrapE_v1, wrapE_v3]

end Cert.KernelIdeal.Gcn

end
-- ==== Proof.lean ====
/-
  THE CERTIFICATE: a two-layer graph convolution with a dot-product decoder, kernel against reference, over the
  extended reals.

  Both programs normalise by the degree: with deg(v) the number of update rows (edges, and one self loop per node) that
  land on node v, the factor of v is deg(v)^(-1/2) where deg(v) > 0 and 0 elsewhere. A layer maps every node's feature
  row linearly, sums over the rows landing on v the source's mapped row weighted by both endpoints' factors, and adds a
  bias; between the two layers stands the positive part; the result is, per edge, the logistic function of the inner
  product of its endpoints' final rows.

  The kernel scales the mapped rows by the source's factor inside its matrix-product regions and multiplies by the
  target's factor once per node, after the sum; the reference multiplies each row by both factors inside the sum. The two
  agree by distributivity and associativity, which on the extended reals need every term to be a real number: the
  inputs are finite by the precondition, the factors are real because a degree is a natural number, and sums and
  products of reals are real (Proof/Bridge.lean). A row lands on node v only if its target index, read signed, is v,
  so the reference's wrapped and clamped read of the target's factor is the factor of v (Proof/RefFacts.lean).
  The decoder gathers the endpoints' rows: the reference clamps an index into the graph, the kernel's take replaces a
  read outside the graph by a fill value, and the two agree because the precondition puts every edge's endpoints inside
  the graph.

  The kernel's result array is read off its run region by region (Proof/RegionValue.lean: each region's output as one
  function of the arrays it enters with; Proof/KernelChain1.lean and Proof/KernelChain2.lean: the host operations between
  the regions), the reference's off its run stage by stage (Proof/RefValue.lean), both as the functions of
  Proof/Spec.lean.
-/
import proofs.«418788_j89043261981497_3_alg».proof.Defs
import proofs.«418788_j89043261981497_3_alg».proof.Proof.Gen.Kernel
import proofs.«418788_j89043261981497_3_alg».proof.Proof.Gen.Kernel.Skeleton
import proofs.«418788_j89043261981497_3_alg».proof.Proof.Gen.Kernel.Launch
import proofs.«418788_j89043261981497_3_alg».proof.Proof.Gen.Kernel.Points
import proofs.«418788_j89043261981497_3_alg».proof.Proof.Gen.Kernel.Frame
import proofs.«418788_j89043261981497_3_alg».proof.Proof.Gen.KernelIdeal
import proofs.«418788_j89043261981497_3_alg».proof.Proof.Gen.KernelIdeal.Skeleton
import proofs.«418788_j89043261981497_3_alg».proof.Proof.Gen.KernelIdeal.Launch
import proofs.«418788_j89043261981497_3_alg».proof.Proof.Gen.KernelIdeal.Points
import proofs.«418788_j89043261981497_3_alg».proof.Proof.Gen.KernelIdeal.Frame
import proofs.«418788_j89043261981497_3_alg».proof.Proof.Gen.ReferenceIdeal
import proofs.«418788_j89043261981497_3_alg».proof.Proof.Gen.Pre_finite_inputs
import proofs.«418788_j89043261981497_3_alg».proof.Proof.Spec
import proofs.«418788_j89043261981497_3_alg».proof.Proof.PreFacts
import proofs.«418788_j89043261981497_3_alg».proof.Proof.Bridge
import proofs.«418788_j89043261981497_3_alg».proof.Proof.RefRead
import proofs.«418788_j89043261981497_3_alg».proof.Proof.RefFacts
import proofs.«418788_j89043261981497_3_alg».proof.Proof.RefValue
import proofs.«418788_j89043261981497_3_alg».proof.Proof.KernelRun
import proofs.«418788_j89043261981497_3_alg».proof.Proof.KernelChain1
import proofs.«418788_j89043261981497_3_alg».proof.Proof.KernelChain2
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_p : Cert.frame_Kernel := fun m ρ _ => Cert.Kernel.Gen.frame m ρ

/-- The idealized kernel runs and keeps its arguments. -/
theorem frame_pi : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories agreeing on the arguments both programs end with the same result: the kernel's result array is the
    composition with the target's factor outside the sums, the reference's the one with both factors inside, and the
    two are one function of finite inputs with every edge inside the graph. -/
theorem algebraic : Cert.algebraic_KernelIdeal_ReferenceIdeal := by
  intro m ρ m' ρ' hpre hagree
  refine ⟨fun c => Cert.KernelIdeal.Gen.W13 (F := Ideal) m ρ c (Proc.devRef .tc Cert.KernelIdeal.main_v55),
    Cert.KernelIdeal.GcnRun.run_named m ρ, ?_⟩
  refine (θ_run Cert.ReferenceIdeal.defs _ _).mono (fun _ h c => ⟨(h c).1.trans ?_, (h c).2⟩)
    (Cert.ReferenceIdeal.RunP.run (F := Ideal) m' ρ')
  obtain ⟨hx, hw1, hb1, hw2, hb2, hidx⟩ := Cert.Gcn.Pre.decode _ _ _ _ _ _ (hpre c)
  rw [Cert.ReferenceIdeal.ReadP.val_main_v114_eq, (hagree c).1, (hagree c).2.1, (hagree c).2.2.1, (hagree c).2.2.2.1,
    (hagree c).2.2.2.2.1, (hagree c).2.2.2.2.2, Cert.ReferenceIdeal.Gcn.ref_value]
  refine Eq.trans ?_ (Cert.KernelIdeal.Gcn.kernel_tail m ρ c _ _ _ _ _ _ (Cert.KernelIdeal.Gcn.W7_v33 m ρ c) (Cert.KernelIdeal.Gcn.W7_v34 m ρ c)
    (Cert.KernelIdeal.Gcn.W7_v15 m ρ c) (Cert.KernelIdeal.Gcn.W7_v5 m ρ c) (Cert.KernelIdeal.Gcn.W7_v6 m ρ c)
    (Cert.KernelIdeal.Gcn.W7_v1 m ρ c) (Cert.KernelIdeal.Gcn.W7_v3 m ρ c) (Cert.KernelIdeal.Gcn.W7_arg5 m ρ c)
    (Cert.ReferenceIdeal.Gcn.src_range _ hidx) (Cert.ReferenceIdeal.Gcn.dst_range _ hidx)).symm
  exact (Cert.Gcn.bridge _ _ _ _ _ _ _ _ _ _ _ hx (Cert.ReferenceIdeal.Gcn.w1t_fin _ hw1) hb1
    (Cert.ReferenceIdeal.Gcn.w2t_fin _ hw2) hb2 (Cert.ReferenceIdeal.Gcn.dinv_fin _)
    (Cert.ReferenceIdeal.Gcn.dW_lands _)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
